-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S32x1 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x16384 .f32) (main_arg2 : FVec F S32x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x64 : Shape := ⟨2, ![16384, 64]⟩
abbrev S1x64 : Shape := ⟨2, ![1, 64]⟩
abbrev S2048x2048 : Shape := ⟨2, ![2048, 2048]⟩
abbrev S2048x64 : Shape := ⟨2, ![2048, 64]⟩
abbrev S1x32 : Shape := ⟨2, ![1, 32]⟩
abbrev S_ : Shape := ⟨0, ![]⟩
abbrev S16384x1 : Shape := ⟨2, ![16384, 1]⟩
abbrev S1x1 : Shape := ⟨2, ![1, 1]⟩

abbrev nBuf : Space → Nat
  | .hbm => 27
  | .vmem => 16
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S1x64, .f32⟩
  | .hbm, ⟨15, _⟩ => ⟨S16384x64, .f32⟩
  | .hbm, ⟨16, _⟩ => ⟨S16384x32, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S_, .f32⟩
  | .hbm, ⟨21, _⟩ => ⟨S16384x32, .f32⟩
  | .hbm, ⟨22, _⟩ => ⟨S16384x32, .f32⟩
  | .hbm, ⟨23, _⟩ => ⟨S16384x1, .f32⟩
  | .hbm, ⟨24, _⟩ => ⟨S1x1, .f32⟩
  | .hbm, ⟨25, _⟩ => ⟨S16384x1, .f32⟩
  | .hbm, ⟨26, _⟩ => ⟨S16384x1, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S2048x64, .f32⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x2048, .f32⟩
  | .local _ .vmem, ⟨9, _⟩ => ⟨S2048x2048, .f32⟩
  | .local _ .vmem, ⟨10, _⟩ => ⟨S2048x64, .f32⟩
  | .local _ .vmem, ⟨11, _⟩ => ⟨S2048x64, .f32⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call2_cst : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x32_S32x64_S16384x64_1_0_0_1_n_n_wf : DotDims.WF S16384x32 S32x64 S16384x64 [1] [0] [0] [1] [] []
  dot_S2048x2048_S2048x64_S2048x64_1_0_0_1_n_n_wf : DotDims.WF S2048x2048 S2048x64 S2048x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)

variable [Facts₀]

def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call1_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x64 : Shape := ⟨2, ![16384, 64]⟩
abbrev S1x64 : Shape := ⟨2, ![1, 64]⟩
abbrev S_ : Shape := ⟨0, ![]⟩
abbrev S1x32 : Shape := ⟨2, ![1, 32]⟩
abbrev S16384x1 : Shape := ⟨2, ![16384, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S16384x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x32, .f32⟩
  | .hbm, ⟨27, _⟩ => ⟨S1x32, .f32⟩
  | .hbm, ⟨28, _⟩ => ⟨S16384x32, .f32⟩
  | .hbm, ⟨29, _⟩ => ⟨S16384x32, .f32⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S16384x1, .f32⟩
  | .hbm, ⟨34, _⟩ => ⟨S1x1, .f32⟩
  | .hbm, ⟨35, _⟩ => ⟨S16384x1, .f32⟩
  | .hbm, ⟨36, _⟩ => ⟨S16384x1, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_cst : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x32_S32x64_S16384x64_1_0_0_1_n_n_wf : DotDims.WF S16384x32 S32x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.K.R0Common.lean ====
/-
  Region 0 (one graph-convolution layer's pallas_call), what its three control cases share.
  The grid is 8 row tiles by 8 contraction steps, point t = 8·i + k. The body zeroes the accumulator scratch
  when k = 0, adds the product of the (i,k) tile of the adjacency with the k-th tile of the features at every
  point, and when k = 7 stores relu(accumulator + bias) into the output tile. So there are three cases:
  A (k = 0), B (0 < k < 7), C (k = 7); the output window is idle, and not written back, in A and B.
  Everything is stated at a parameter V, the contents of the core's buffers when the region is entered.
-/
import proofs.«119303_j10565619548474_1_alg».proof.Proof.Gen.Kernel.Launch
import proofs.«119303_j10565619548474_1_alg».proof.Proof.Gen.Kernel.Skeleton
import proofs.«119303_j10565619548474_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index has not moved since the last fetch: the adjacency tile (window 0), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the feature tile (window 1), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias row (window 2, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first contraction step" (k = 0), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last contraction step nothing is stored into the output tile, and the pipeline does not write it back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last step it is stored whole. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S2048x64 .f32 := (Memref.whole cc0_stg3_0 : Memref sig .tc .vmem S2048x64 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The accumulator: a scoped buffer of the kernel's own, carried from one point to the next. -/
abbrev scM0 : Memref sig .tc .vmem S2048x64 .f32 := Memref.whole cc0_scratch0
abbrev VS0 : View sig .tc .vmem S2048x64 .f32 := scM0.view

/-! ## The region's invariant with the accumulator split off -/

/-- The core's scoped buffers that are no staging buffer of this region: the accumulator at some contents, and the
    others (the second region's buffers) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The untouched part of the invariant. -/
abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ restBut0 (F := F) c) ∗ (∃ r, prngReg c r)) := by
  unfold Pipeline.ΦA; rw [scopedRest0_split]; simp only [scM0, owns_whole]; try rfl

end Cert.Kernel.Layer

end
-- ==== Proof.K.R0RunA.lean ====
/-
  Region 0, case A: the first contraction step (k = 0). The accumulator is zeroed and the first product added; the output tile is left as it was.
  The body run on whole staging memrefs; the pieces the accumulator (and, in the last case, the output tile)
  ends with are found by the run itself.
-/
import proofs.«119303_j10565619548474_1_alg».proof.Proof.K.R0Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨[], ?_, fun xi3 E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Layer

end
-- ==== Proof.K.R0RunB.lean ====
/-
  Region 0, case B: a middle contraction step (0 < k < 7). The product is added to what the step before left in the accumulator; the output tile is left as it was.
  The body run on whole staging memrefs; the pieces the accumulator (and, in the last case, the output tile)
  ends with are found by the run itself.
-/
import proofs.«119303_j10565619548474_1_alg».proof.Proof.K.R0Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨[], ?_, fun xi3 E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Layer

end
-- ==== Proof.K.R0RunC.lean ====
/-
  Region 0, case C: the last contraction step (k = 7). The product is added to the accumulator, and relu(accumulator + bias) is stored into the output tile.
  The body run on whole staging memrefs; the pieces the accumulator (and, in the last case, the output tile)
  ends with are found by the run itself.
-/
import proofs.«119303_j10565619548474_1_alg».proof.Proof.K.R0Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨?_, ?_, fun E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Layer

end
-- ==== Proof.K.R0Body.lean ====
/-
  Region 0: what its outputs hold point by point, the proof data, and the body obligation.
  After the body at point t = 8·i + k the accumulator holds the sum of the first k + 1 tile products of row tile i
  (case A starts it from zero, cases B and C add to what the point before left); the output tile is stored only
  at k = 7. The region's invariant carries the accumulator at exactly those contents from one point to the next.
-/
import proofs.«119303_j10565619548474_1_alg».proof.Proof.K.R0RunA
import proofs.«119303_j10565619548474_1_alg».proof.Proof.K.R0RunB
import proofs.«119303_j10565619548474_1_alg».proof.Proof.K.R0RunC

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output tile: a placeholder nothing consults (the window is idle there and not written back). -/
def out0_A_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) : Vec F S2048x64 .f32 :=
  VO0_3.read (Elt F) (VO0_3.writes (Elt F) VO0_3.junk (kernelRun0_A c i arg2 harg2 arg3 harg3 arg4 harg4 arg5 harg5 arg6 harg6 hc0 hc1 x0 x1 x2).1)

/-- Case A stores the accumulator whole, so its pieces cover it. -/
theorem scover0_A_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) (y : S2048x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S2048x64.size (by sl_kernel_rfl) y

/-- What case A leaves in the accumulator. -/
def sout0_A_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) : Vec F S2048x64 .f32 :=
  VS0.read (Elt F) (VS0.writes (Elt F) VS0.junk (kernelRun0_A c i arg2 harg2 arg3 harg3 arg4 harg4 arg5 harg5 arg6 harg6 hc0 hc1 x0 x1 x2).2.1)

/-- Case B stores nothing into the output tile: a placeholder nothing consults (the window is idle there and not written back). -/
def out0_B_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) : Vec F S2048x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B stores the accumulator whole, so its pieces cover it. -/
theorem scover0_B_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) (y : S2048x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S2048x64.size (by sl_kernel_rfl) y

/-- What case B leaves in the accumulator. -/
def sout0_B_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) : Vec F S2048x64 .f32 :=
  VS0.read (Elt F) (VS0.writes (Elt F) VS0.junk (kernelRun0_B c i arg2 harg2 arg3 harg3 arg4 harg4 arg5 harg5 arg6 harg6 hc0 hc1 x0 x1 x2 xs0).2.1)

/-- Case C stores the output tile whole, so its pieces cover it. -/
theorem cover0_C_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x64.size (by sl_kernel_rfl) y

/-- What case C leaves in the output tile's staging buffer. -/
def out0_C_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) : Vec F S2048x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C stores the accumulator whole, so its pieces cover it. -/
theorem scover0_C_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x64.size (by sl_kernel_rfl) y

/-- What case C leaves in the accumulator. -/
def sout0_C_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) : Vec F S2048x64 .f32 :=
  VS0.read (Elt F) (VS0.writes (Elt F) VS0.junk (kernelRun0_C c i arg2 harg2 arg3 harg3 arg4 harg4 arg5 harg5 arg6 harg6 hc0 hc1 x0 x1 x2 xs0).2.1)

/-! ## What the output tile's buffer and the accumulator hold after each point -/

/-- After the body at position n: (the output tile's staging buffer, the accumulator). The case is the one the
    closed forms select at n; cases B and C take the accumulator as the point before left it. -/
def outsAt0 (c : Dev nD) : (n : ℕ) → n < cfg0.N → Vec F S2048x64 .f32 × Vec F S2048x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried at what the point before left -/

/-- Before position n: at the region's entry the accumulator holds anything; afterwards what point n - 1 left. The
    other scoped buffers ride along unopened, and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 (F := F) c) ∗ (∃ r, prngReg c r)) := by
  cases n with
  | zero => exact absurd rfl hz
  | succ n => rfl

/-! ## The proof data -/

/-- The arrays as the region finds them; after the body each input's buffer at its block, the output tile's at
    outsAt0's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The three inputs hand their memrefs back as they were. -/
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

set_option maxHeartbeats 4800000 in
/-- The body at any point: the closed forms say which case the point is in; the invariant hands the run the
    accumulator at what the point before left (at anything at the very first point) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [(leaves0_in V c t).1, (leaves0_in V c t).2.1, (leaves0_in V c t).2.2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrb⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrb⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := fun hz => h0 (by rw [hz])
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives that back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Layer

end
-- ==== Proof.K.R1Common.lean ====
/-
  Region 1 (one graph-convolution layer's pallas_call), what its three control cases share.
  The grid is 8 row tiles by 8 contraction steps, point t = 8·i + k. The body zeroes the accumulator scratch
  when k = 0, adds the product of the (i,k) tile of the adjacency with the k-th tile of the features at every
  point, and when k = 7 stores relu(accumulator + bias) into the output tile. So there are three cases:
  A (k = 0), B (0 < k < 7), C (k = 7); the output window is idle, and not written back, in A and B.
  Everything is stated at a parameter V, the contents of the core's buffers when the region is entered.
-/
import proofs.«119303_j10565619548474_1_alg».proof.Proof.Gen.Kernel.Launch
import proofs.«119303_j10565619548474_1_alg».proof.Proof.Gen.Kernel.Skeleton
import proofs.«119303_j10565619548474_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    block index has not moved since the last fetch: the adjacency tile (window 0), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the feature tile (window 1), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row (window 2, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- "This is the first contraction step" (k = 0), as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction step" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last contraction step nothing is stored into the output tile, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step it is stored whole. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x64 .f32 := (Memref.whole cc1_stg3_0 : Memref sig .tc .vmem S2048x64 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a scoped buffer of the kernel's own, carried from one point to the next. -/
abbrev scM1 : Memref sig .tc .vmem S2048x64 .f32 := Memref.whole cc1_scratch0
abbrev VS1 : View sig .tc .vmem S2048x64 .f32 := scM1.view

/-! ## The region's invariant with the accumulator split off -/

/-- The core's scoped buffers that are no staging buffer of this region: the accumulator at some contents, and the
    others (the second region's buffers) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The untouched part of the invariant. -/
abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ restBut1 (F := F) c) ∗ (∃ r, prngReg c r)) := by
  unfold Pipeline.ΦA; rw [scopedRest1_split]; simp only [scM1, owns_whole]; try rfl

end Cert.Kernel.Layer

end
-- ==== Proof.K.R1RunA.lean ====
/-
  Region 1, case A: the first contraction step (k = 0). The accumulator is zeroed and the first product added; the output tile is left as it was.
  The body run on whole staging memrefs; the pieces the accumulator (and, in the last case, the output tile)
  ends with are found by the run itself.
-/
import proofs.«119303_j10565619548474_1_alg».proof.Proof.K.R1Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨[], ?_, fun xi3 E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Layer

end
-- ==== Proof.K.R1RunB.lean ====
/-
  Region 1, case B: a middle contraction step (0 < k < 7). The product is added to what the step before left in the accumulator; the output tile is left as it was.
  The body run on whole staging memrefs; the pieces the accumulator (and, in the last case, the output tile)
  ends with are found by the run itself.
-/
import proofs.«119303_j10565619548474_1_alg».proof.Proof.K.R1Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨[], ?_, fun xi3 E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Layer

end
-- ==== Proof.K.R1RunC.lean ====
/-
  Region 1, case C: the last contraction step (k = 7). The product is added to the accumulator, and relu(accumulator + bias) is stored into the output tile.
  The body run on whole staging memrefs; the pieces the accumulator (and, in the last case, the output tile)
  ends with are found by the run itself.
-/
import proofs.«119303_j10565619548474_1_alg».proof.Proof.K.R1Common

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Layer

end
-- ==== Proof.K.R1Body.lean ====
/-
  Region 1: what its outputs hold point by point, the proof data, and the body obligation.
  After the body at point t = 8·i + k the accumulator holds the sum of the first k + 1 tile products of row tile i
  (case A starts it from zero, cases B and C add to what the point before left); the output tile is stored only
  at k = 7. The region's invariant carries the accumulator at exactly those contents from one point to the next.
-/
import proofs.«119303_j10565619548474_1_alg».proof.Proof.K.R1RunA
import proofs.«119303_j10565619548474_1_alg».proof.Proof.K.R1RunB
import proofs.«119303_j10565619548474_1_alg».proof.Proof.K.R1RunC

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output tile: a placeholder nothing consults (the window is idle there and not written back). -/
def out1_A_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

/-- Case A stores the accumulator whole, so its pieces cover it. -/
theorem scover1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) (y : S2048x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x64.size (by sl_kernel_rfl) y

/-- What case A leaves in the accumulator. -/
def sout1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) : Vec F S2048x64 .f32 :=
  VS1.read (Elt F) (VS1.writes (Elt F) VS1.junk (kernelRun1_A c i arg2 harg2 arg3 harg3 arg4 harg4 arg5 harg5 arg6 harg6 hc0 hc1 x0 x1 x2).2.1)

/-- Case B stores nothing into the output tile: a placeholder nothing consults (the window is idle there and not written back). -/
def out1_B_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B stores the accumulator whole, so its pieces cover it. -/
theorem scover1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) (y : S2048x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x64.size (by sl_kernel_rfl) y

/-- What case B leaves in the accumulator. -/
def sout1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) : Vec F S2048x64 .f32 :=
  VS1.read (Elt F) (VS1.writes (Elt F) VS1.junk (kernelRun1_B c i arg2 harg2 arg3 harg3 arg4 harg4 arg5 harg5 arg6 harg6 hc0 hc1 x0 x1 x2 xs0).2.1)

/-- Case C stores the output tile whole, so its pieces cover it. -/
theorem cover1_C_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output tile's staging buffer. -/
def out1_C_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C stores the accumulator whole, so its pieces cover it. -/
theorem scover1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the accumulator. -/
def sout1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) : Vec F S2048x64 .f32 :=
  VS1.read (Elt F) (VS1.writes (Elt F) VS1.junk (kernelRun1_C c i arg2 harg2 arg3 harg3 arg4 harg4 arg5 harg5 arg6 harg6 hc0 hc1 x0 x1 x2 xs0).2.1)

/-! ## What the output tile's buffer and the accumulator hold after each point -/

/-- After the body at position n: (the output tile's staging buffer, the accumulator). The case is the one the
    closed forms select at n; cases B and C take the accumulator as the point before left it. -/
def outsAt1 (c : Dev nD) : (n : ℕ) → n < cfg1.N → Vec F S2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried at what the point before left -/

/-- Before position n: at the region's entry the accumulator holds anything; afterwards what point n - 1 left. The
    other scoped buffers ride along unopened, and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 (F := F) c) ∗ (∃ r, prngReg c r)) := by
  cases n with
  | zero => exact absurd rfl hz
  | succ n => rfl

/-! ## The proof data -/

/-- The arrays as the region finds them; after the body each input's buffer at its block, the output tile's at
    outsAt1's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three inputs hand their memrefs back as they were. -/
theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
/-- The body at any point: the closed forms say which case the point is in; the invariant hands the run the
    accumulator at what the point before left (at anything at the very first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [(leaves1_in V c t).1, (leaves1_in V c t).2.1, (leaves1_in V c t).2.2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrb⟩, Hg⟩
  isplitl [HS0 Hrb]
  · isplitl [HS0]
    · iexists _; iexact HS0
    iexact Hrb
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Layer

end
-- ==== Proof.K.Run.lean ====
/-
  The whole program as a run of nine segments: a host stretch (x·W1), the bias reshape, the first layer's region,
  a host stretch (·W2), the bias reshape, the second layer's region, and the three host stretches of the dense
  head. W0 … W9 are the contents of the core's buffers at the ten boundaries: a host stretch applies its
  operations, a region replaces its output array by what its write-backs leave and keeps everything else.
  The run ends with every buffer at W9; no segment writes an argument, so each argument ends as launched.
-/
import proofs.«119303_j10565619548474_1_alg».proof.Proof.K.R0Body
import proofs.«119303_j10565619548474_1_alg».proof.Proof.K.R1Body
import proofs.«119303_j10565619548474_1_alg».proof.Proof.Gen.Kernel.Regions
import Idealize.ShloMosaic.Lib.Pipeline.RegionsLoop

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The same read at the TensorCore's references: what region 0's proof data take. -/
abbrev V2 : (c : Dev nD) → (b : Ref sig .tc) → Buf (Elt F) ((c : Thread nD τ).loc b) := fun c b => W2 m ρ c b
/-- At region 0's exit: its arrays at what the pipeline leaves (the inputs as entered, the output's write-backs folded in),
    every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
/-- An input window's array is left as it was entered. -/
theorem W3_in (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))
/-- After the host stretch `hostOps1`. -/
abbrev W4 : Dev nD → Valuation τ sig (Elt F) := fun c => StableHlo.after hostOps1 (W3 m ρ c)
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
/-- After the host stretch `hostOps1_1`. -/
abbrev W5 : Dev nD → Valuation τ sig (Elt F) := fun c => StableHlo.after hostOps1_1 (W4 m ρ c)
theorem W5_of (c : Dev nD) (r : Ref sig .tc) (h : r ∉ hostOps1_1_W) : W5 m ρ c (Proc.devRef .tc r) = W4 m ρ c (Proc.devRef .tc r) :=
  StableHlo.after_of_writes_sub hostOps1_1 _ hostOps1_1_writes h
/-- The same read at the TensorCore's references: what region 1's proof data take. -/
abbrev V5 : (c : Dev nD) → (b : Ref sig .tc) → Buf (Elt F) ((c : Thread nD τ).loc b) := fun c b => W5 m ρ c b
/-- At region 1's exit: its arrays at what the pipeline leaves (the inputs as entered, the output's write-backs folded in),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array is left as it was entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After the host stretch `hostOps2_1`. -/
abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
/-- After the host stretch `hostOps2_2`. -/
abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h

/-! ## No segment writes an argument -/

theorem W9_main_arg0 (c : Dev nD) : W9 m ρ c (Proc.devRef .tc main_arg0) = m ((c : Thread nD τ).loc main_arg0) :=
  (W9_of m ρ c main_arg0 (by decide)).trans <| (W8_of m ρ c main_arg0 (by decide)).trans <| (W7_of m ρ c main_arg0 (by decide)).trans <| (W6_of_ne m ρ c main_arg0 (by decide)).trans <|
    (W5_of m ρ c main_arg0 (by decide)).trans <| (W4_of m ρ c main_arg0 (by decide)).trans <| (W3_of_ne m ρ c main_arg0 (by decide)).trans <| (W2_of m ρ c main_arg0 (by decide)).trans <| (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <| (W8_of m ρ c main_arg1 (by decide)).trans <| (W7_of m ρ c main_arg1 (by decide)).trans <| (W6_in m ρ c 0 rfl).trans <|
    (W5_of m ρ c main_arg1 (by decide)).trans <| (W4_of m ρ c main_arg1 (by decide)).trans <| (W3_in m ρ c 0 rfl).trans <| (W2_of m ρ c main_arg1 (by decide)).trans <| (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <| (W8_of m ρ c main_arg2 (by decide)).trans <| (W7_of m ρ c main_arg2 (by decide)).trans <| (W6_of_ne m ρ c main_arg2 (by decide)).trans <|
    (W5_of m ρ c main_arg2 (by decide)).trans <| (W4_of m ρ c main_arg2 (by decide)).trans <| (W3_of_ne m ρ c main_arg2 (by decide)).trans <| (W2_of m ρ c main_arg2 (by decide)).trans <| (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <| (W8_of m ρ c main_arg3 (by decide)).trans <| (W7_of m ρ c main_arg3 (by decide)).trans <| (W6_of_ne m ρ c main_arg3 (by decide)).trans <|
    (W5_of m ρ c main_arg3 (by decide)).trans <| (W4_of m ρ c main_arg3 (by decide)).trans <| (W3_of_ne m ρ c main_arg3 (by decide)).trans <| (W2_of m ρ c main_arg3 (by decide)).trans <| (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <| (W8_of m ρ c main_arg4 (by decide)).trans <| (W7_of m ρ c main_arg4 (by decide)).trans <| (W6_of_ne m ρ c main_arg4 (by decide)).trans <|
    (W5_of m ρ c main_arg4 (by decide)).trans <| (W4_of m ρ c main_arg4 (by decide)).trans <| (W3_of_ne m ρ c main_arg4 (by decide)).trans <| (W2_of m ρ c main_arg4 (by decide)).trans <| (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <| (W8_of m ρ c main_arg5 (by decide)).trans <| (W7_of m ρ c main_arg5 (by decide)).trans <| (W6_of_ne m ρ c main_arg5 (by decide)).trans <|
    (W5_of m ρ c main_arg5 (by decide)).trans <| (W4_of m ρ c main_arg5 (by decide)).trans <| (W3_of_ne m ρ c main_arg5 (by decide)).trans <| (W2_of m ρ c main_arg5 (by decide)).trans <| (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <| (W8_of m ρ c main_arg6 (by decide)).trans <| (W7_of m ρ c main_arg6 (by decide)).trans <| (W6_of_ne m ρ c main_arg6 (by decide)).trans <|
    (W5_of m ρ c main_arg6 (by decide)).trans <| (W4_of m ρ c main_arg6 (by decide)).trans <| (W3_of_ne m ρ c main_arg6 (by decide)).trans <| (W2_of m ρ c main_arg6 (by decide)).trans <| (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <| (W8_of m ρ c main_arg7 (by decide)).trans <| (W7_of m ρ c main_arg7 (by decide)).trans <| (W6_of_ne m ρ c main_arg7 (by decide)).trans <|
    (W5_of m ρ c main_arg7 (by decide)).trans <| (W4_of m ρ c main_arg7 (by decide)).trans <| (W3_of_ne m ρ c main_arg7 (by decide)).trans <| (W2_of m ρ c main_arg7 (by decide)).trans <| (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <| (W8_of m ρ c main_arg8 (by decide)).trans <| (W7_of m ρ c main_arg8 (by decide)).trans <| (W6_of_ne m ρ c main_arg8 (by decide)).trans <|
    (W5_of m ρ c main_arg8 (by decide)).trans <| (W4_of m ρ c main_arg8 (by decide)).trans <| (W3_of_ne m ρ c main_arg8 (by decide)).trans <| (W2_of m ρ c main_arg8 (by decide)).trans <| (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <| (W8_of m ρ c main_arg9 (by decide)).trans <| (W7_of m ρ c main_arg9 (by decide)).trans <| (W6_of_ne m ρ c main_arg9 (by decide)).trans <|
    (W5_of m ρ c main_arg9 (by decide)).trans <| (W4_of m ρ c main_arg9 (by decide)).trans <| (W3_of_ne m ρ c main_arg9 (by decide)).trans <| (W2_of m ρ c main_arg9 (by decide)).trans <| (W1_of m ρ c main_arg9 (by decide)).trans rfl

/-! ## The proof data family and the thread state -/

/-- No pallas_call has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := StableHlo.held (c : Thread nD τ) (Pipeline.ucRefs τ sig) (W9 m ρ c)

/-! ## The regions as segments -/

set_option backward.isDefEq.respectTransparency.types false in
/-- Region 0 over the thread state: entered from every unscoped buffer at W2, left at W3. Its arrays are split out
    of the unscoped buffers and put back at what the write-backs leave; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V2 m ρ) c).trans hgive
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out
    of the unscoped buffers and put back at what the write-backs leave; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V5 m ρ) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)) ]

set_option backward.isDefEq.respectTransparency.types false in
/-- From any memory with zero counters every weakly fair execution of @main terminates, nothing faulting, with
    every unscoped buffer of every core at W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => sep_mono .rfl (show R (F := F) c ⊢ iprop(∃ W, owes (c : Thread nD τ) (0 : CellTallies nD τ sig Unit) W) from by
        iintro ⟨-, Ho⟩; iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      show iprop(StableHlo.held (c : Thread nD τ) (Pipeline.ucRefs τ sig) (W9 m ρ c) ∗ SI s') ⊢ _
      unfold StableHlo.held
      iintro ⟨Hh, HSI⟩
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

end Cert.Kernel.Layer

end
-- ==== Proof.KI.R0Common.lean ====
/-
  Region 0 (one graph-convolution layer's pallas_call), what its three control cases share.
  The grid is 8 row tiles by 8 contraction steps, point t = 8·i + k. The body zeroes the accumulator scratch
  when k = 0, adds the product of the (i,k) tile of the adjacency with the k-th tile of the features at every
  point, and when k = 7 stores relu(accumulator + bias) into the output tile. So there are three cases:
  A (k = 0), B (0 < k < 7), C (k = 7); the output window is idle, and not written back, in A and B.
  Everything is stated at a parameter V, the contents of the core's buffers when the region is entered.
-/
import proofs.«119303_j10565619548474_1_alg».proof.Proof.Gen.KernelIdeal.Launch
import proofs.«119303_j10565619548474_1_alg».proof.Proof.Gen.KernelIdeal.Skeleton
import proofs.«119303_j10565619548474_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index has not moved since the last fetch: the adjacency tile (window 0), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the feature tile (window 1), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias row (window 2, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first contraction step" (k = 0), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last contraction step nothing is stored into the output tile, and the pipeline does not write it back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last step it is stored whole. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S2048x64 .f32 := (Memref.whole cc0_stg3_0 : Memref sig .tc .vmem S2048x64 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The accumulator: a scoped buffer of the kernel's own, carried from one point to the next. -/
abbrev scM0 : Memref sig .tc .vmem S2048x64 .f32 := Memref.whole cc0_scratch0
abbrev VS0 : View sig .tc .vmem S2048x64 .f32 := scM0.view

/-! ## The region's invariant with the accumulator split off -/

/-- The core's scoped buffers that are no staging buffer of this region: the accumulator at some contents, and the
    others (the second region's buffers) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The untouched part of the invariant. -/
abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ restBut0 (F := F) c) ∗ (∃ r, prngReg c r)) := by
  unfold Pipeline.ΦA; rw [scopedRest0_split]; simp only [scM0, owns_whole]; try rfl

end Cert.KernelIdeal.Layer

end
-- ==== Proof.KI.R0RunA.lean ====
/-
  Region 0, case A: the first contraction step (k = 0). The accumulator is zeroed and the first product added; the output tile is left as it was.
  The body run on whole staging memrefs; the pieces the accumulator (and, in the last case, the output tile)
  ends with are found by the run itself.
-/
import proofs.«119303_j10565619548474_1_alg».proof.Proof.KI.R0Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨[], ?_, fun xi3 E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Layer

end
-- ==== Proof.KI.R0RunB.lean ====
/-
  Region 0, case B: a middle contraction step (0 < k < 7). The product is added to what the step before left in the accumulator; the output tile is left as it was.
  The body run on whole staging memrefs; the pieces the accumulator (and, in the last case, the output tile)
  ends with are found by the run itself.
-/
import proofs.«119303_j10565619548474_1_alg».proof.Proof.KI.R0Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨[], ?_, fun xi3 E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Layer

end
-- ==== Proof.KI.R0RunC.lean ====
/-
  Region 0, case C: the last contraction step (k = 7). The product is added to the accumulator, and relu(accumulator + bias) is stored into the output tile.
  The body run on whole staging memrefs; the pieces the accumulator (and, in the last case, the output tile)
  ends with are found by the run itself.
-/
import proofs.«119303_j10565619548474_1_alg».proof.Proof.KI.R0Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_matmul_kernel i arg2 harg2 arg3 harg3 arg4 harg4 arg5 harg5 arg6 harg6) K } := by
  refine ⟨?_, ?_, fun E K => ?run⟩
  case run =>
    simp only [cc0__gcn_matmul_kernel_eq_skeleton]; unfold cc0__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Layer

end
-- ==== Proof.KI.R0Body.lean ====
/-
  Region 0: what its outputs hold point by point, the proof data, and the body obligation.
  After the body at point t = 8·i + k the accumulator holds the sum of the first k + 1 tile products of row tile i
  (case A starts it from zero, cases B and C add to what the point before left); the output tile is stored only
  at k = 7. The region's invariant carries the accumulator at exactly those contents from one point to the next.
-/
import proofs.«119303_j10565619548474_1_alg».proof.Proof.KI.R0RunA
import proofs.«119303_j10565619548474_1_alg».proof.Proof.KI.R0RunB
import proofs.«119303_j10565619548474_1_alg».proof.Proof.KI.R0RunC

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output tile: a placeholder nothing consults (the window is idle there and not written back). -/
def out0_A_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) : Vec F S2048x64 .f32 :=
  VO0_3.read (Elt F) (VO0_3.writes (Elt F) VO0_3.junk (kernelRun0_A c i arg2 harg2 arg3 harg3 arg4 harg4 arg5 harg5 arg6 harg6 hc0 hc1 x0 x1 x2).1)

/-- Case A stores the accumulator whole, so its pieces cover it. -/
theorem scover0_A_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) (y : S2048x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S2048x64.size (by sl_kernel_rfl) y

/-- What case A leaves in the accumulator. -/
def sout0_A_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) : Vec F S2048x64 .f32 :=
  VS0.read (Elt F) (VS0.writes (Elt F) VS0.junk (kernelRun0_A c i arg2 harg2 arg3 harg3 arg4 harg4 arg5 harg5 arg6 harg6 hc0 hc1 x0 x1 x2).2.1)

/-- Case B stores nothing into the output tile: a placeholder nothing consults (the window is idle there and not written back). -/
def out0_B_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) : Vec F S2048x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B stores the accumulator whole, so its pieces cover it. -/
theorem scover0_B_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) (y : S2048x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S2048x64.size (by sl_kernel_rfl) y

/-- What case B leaves in the accumulator. -/
def sout0_B_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) : Vec F S2048x64 .f32 :=
  VS0.read (Elt F) (VS0.writes (Elt F) VS0.junk (kernelRun0_B c i arg2 harg2 arg3 harg3 arg4 harg4 arg5 harg5 arg6 harg6 hc0 hc1 x0 x1 x2 xs0).2.1)

/-- Case C stores the output tile whole, so its pieces cover it. -/
theorem cover0_C_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x64.size (by sl_kernel_rfl) y

/-- What case C leaves in the output tile's staging buffer. -/
def out0_C_3 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) : Vec F S2048x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C stores the accumulator whole, so its pieces cover it. -/
theorem scover0_C_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x64.size (by sl_kernel_rfl) y

/-- What case C leaves in the accumulator. -/
def sout0_C_0 (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) : Vec F S2048x64 .f32 :=
  VS0.read (Elt F) (VS0.writes (Elt F) VS0.junk (kernelRun0_C c i arg2 harg2 arg3 harg3 arg4 harg4 arg5 harg5 arg6 harg6 hc0 hc1 x0 x1 x2 xs0).2.1)

/-! ## What the output tile's buffer and the accumulator hold after each point -/

/-- After the body at position n: (the output tile's staging buffer, the accumulator). The case is the one the
    closed forms select at n; cases B and C take the accumulator as the point before left it. -/
def outsAt0 (c : Dev nD) : (n : ℕ) → n < cfg0.N → Vec F S2048x64 .f32 × Vec F S2048x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried at what the point before left -/

/-- Before position n: at the region's entry the accumulator holds anything; afterwards what point n - 1 left. The
    other scoped buffers ride along unopened, and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 (F := F) c) ∗ (∃ r, prngReg c r)) := by
  cases n with
  | zero => exact absurd rfl hz
  | succ n => rfl

/-! ## The proof data -/

/-- The arrays as the region finds them; after the body each input's buffer at its block, the output tile's at
    outsAt0's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The three inputs hand their memrefs back as they were. -/
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

set_option maxHeartbeats 4800000 in
/-- The body at any point: the closed forms say which case the point is in; the invariant hands the run the
    accumulator at what the point before left (at anything at the very first point) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [(leaves0_in V c t).1, (leaves0_in V c t).2.1, (leaves0_in V c t).2.2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrb⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrb⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := fun hz => h0 (by rw [hz])
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives that back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Layer

end
-- ==== Proof.KI.R1Common.lean ====
/-
  Region 1 (one graph-convolution layer's pallas_call), what its three control cases share.
  The grid is 8 row tiles by 8 contraction steps, point t = 8·i + k. The body zeroes the accumulator scratch
  when k = 0, adds the product of the (i,k) tile of the adjacency with the k-th tile of the features at every
  point, and when k = 7 stores relu(accumulator + bias) into the output tile. So there are three cases:
  A (k = 0), B (0 < k < 7), C (k = 7); the output window is idle, and not written back, in A and B.
  Everything is stated at a parameter V, the contents of the core's buffers when the region is entered.
-/
import proofs.«119303_j10565619548474_1_alg».proof.Proof.Gen.KernelIdeal.Launch
import proofs.«119303_j10565619548474_1_alg».proof.Proof.Gen.KernelIdeal.Skeleton
import proofs.«119303_j10565619548474_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    block index has not moved since the last fetch: the adjacency tile (window 0), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the feature tile (window 1), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row (window 2, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- "This is the first contraction step" (k = 0), as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction step" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last contraction step nothing is stored into the output tile, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step it is stored whole. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x64 .f32 := (Memref.whole cc1_stg3_0 : Memref sig .tc .vmem S2048x64 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a scoped buffer of the kernel's own, carried from one point to the next. -/
abbrev scM1 : Memref sig .tc .vmem S2048x64 .f32 := Memref.whole cc1_scratch0
abbrev VS1 : View sig .tc .vmem S2048x64 .f32 := scM1.view

/-! ## The region's invariant with the accumulator split off -/

/-- The core's scoped buffers that are no staging buffer of this region: the accumulator at some contents, and the
    others (the second region's buffers) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The untouched part of the invariant. -/
abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ restBut1 (F := F) c) ∗ (∃ r, prngReg c r)) := by
  unfold Pipeline.ΦA; rw [scopedRest1_split]; simp only [scM1, owns_whole]; try rfl

end Cert.KernelIdeal.Layer

end
-- ==== Proof.KI.R1RunA.lean ====
/-
  Region 1, case A: the first contraction step (k = 0). The accumulator is zeroed and the first product added; the output tile is left as it was.
  The body run on whole staging memrefs; the pieces the accumulator (and, in the last case, the output tile)
  ends with are found by the run itself.
-/
import proofs.«119303_j10565619548474_1_alg».proof.Proof.KI.R1Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨[], ?_, fun xi3 E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Layer

end
-- ==== Proof.KI.R1RunB.lean ====
/-
  Region 1, case B: a middle contraction step (0 < k < 7). The product is added to what the step before left in the accumulator; the output tile is left as it was.
  The body run on whole staging memrefs; the pieces the accumulator (and, in the last case, the output tile)
  ends with are found by the run itself.
-/
import proofs.«119303_j10565619548474_1_alg».proof.Proof.KI.R1Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨[], ?_, fun xi3 E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Layer

end
-- ==== Proof.KI.R1RunC.lean ====
/-
  Region 1, case C: the last contraction step (k = 7). The product is added to the accumulator, and relu(accumulator + bias) is stored into the output tile.
  The body run on whole staging memrefs; the pieces the accumulator (and, in the last case, the output tile)
  ends with are found by the run itself.
-/
import proofs.«119303_j10565619548474_1_alg».proof.Proof.KI.R1Common

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_matmul_kernel i arg2 harg2 arg3 harg3 arg4 harg4 arg5 harg5 arg6 harg6) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Layer

end
-- ==== Proof.KI.R1Body.lean ====
/-
  Region 1: what its outputs hold point by point, the proof data, and the body obligation.
  After the body at point t = 8·i + k the accumulator holds the sum of the first k + 1 tile products of row tile i
  (case A starts it from zero, cases B and C add to what the point before left); the output tile is stored only
  at k = 7. The region's invariant carries the accumulator at exactly those contents from one point to the next.
-/
import proofs.«119303_j10565619548474_1_alg».proof.Proof.KI.R1RunA
import proofs.«119303_j10565619548474_1_alg».proof.Proof.KI.R1RunB
import proofs.«119303_j10565619548474_1_alg».proof.Proof.KI.R1RunC

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output tile: a placeholder nothing consults (the window is idle there and not written back). -/
def out1_A_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

/-- Case A stores the accumulator whole, so its pieces cover it. -/
theorem scover1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) (y : S2048x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x64.size (by sl_kernel_rfl) y

/-- What case A leaves in the accumulator. -/
def sout1_A_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) : Vec F S2048x64 .f32 :=
  VS1.read (Elt F) (VS1.writes (Elt F) VS1.junk (kernelRun1_A c i arg2 harg2 arg3 harg3 arg4 harg4 arg5 harg5 arg6 harg6 hc0 hc1 x0 x1 x2).2.1)

/-- Case B stores nothing into the output tile: a placeholder nothing consults (the window is idle there and not written back). -/
def out1_B_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B stores the accumulator whole, so its pieces cover it. -/
theorem scover1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) (y : S2048x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x64.size (by sl_kernel_rfl) y

/-- What case B leaves in the accumulator. -/
def sout1_B_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) : Vec F S2048x64 .f32 :=
  VS1.read (Elt F) (VS1.writes (Elt F) VS1.junk (kernelRun1_B c i arg2 harg2 arg3 harg3 arg4 harg4 arg5 harg5 arg6 harg6 hc0 hc1 x0 x1 x2 xs0).2.1)

/-- Case C stores the output tile whole, so its pieces cover it. -/
theorem cover1_C_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output tile's staging buffer. -/
def out1_C_3 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C stores the accumulator whole, so its pieces cover it. -/
theorem scover1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the accumulator. -/
def sout1_C_0 (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) : Vec F S2048x64 .f32 :=
  VS1.read (Elt F) (VS1.writes (Elt F) VS1.junk (kernelRun1_C c i arg2 harg2 arg3 harg3 arg4 harg4 arg5 harg5 arg6 harg6 hc0 hc1 x0 x1 x2 xs0).2.1)

/-! ## What the output tile's buffer and the accumulator hold after each point -/

/-- After the body at position n: (the output tile's staging buffer, the accumulator). The case is the one the
    closed forms select at n; cases B and C take the accumulator as the point before left it. -/
def outsAt1 (c : Dev nD) : (n : ℕ) → n < cfg1.N → Vec F S2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried at what the point before left -/

/-- Before position n: at the region's entry the accumulator holds anything; afterwards what point n - 1 left. The
    other scoped buffers ride along unopened, and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 (F := F) c) ∗ (∃ r, prngReg c r)) := by
  cases n with
  | zero => exact absurd rfl hz
  | succ n => rfl

/-! ## The proof data -/

/-- The arrays as the region finds them; after the body each input's buffer at its block, the output tile's at
    outsAt1's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three inputs hand their memrefs back as they were. -/
theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
/-- The body at any point: the closed forms say which case the point is in; the invariant hands the run the
    accumulator at what the point before left (at anything at the very first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [(leaves1_in V c t).1, (leaves1_in V c t).2.1, (leaves1_in V c t).2.2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover1_A_0 c _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrb⟩, Hg⟩
  isplitl [HS0 Hrb]
  · isplitl [HS0]
    · iexists _; iexact HS0
    iexact Hrb
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Layer

end
-- ==== Proof.KI.Run.lean ====
/-
  The whole program as a run of nine segments: a host stretch (x·W1), the bias reshape, the first layer's region,
  a host stretch (·W2), the bias reshape, the second layer's region, and the three host stretches of the dense
  head. W0 … W9 are the contents of the core's buffers at the ten boundaries: a host stretch applies its
  operations, a region replaces its output array by what its write-backs leave and keeps everything else.
  The run ends with every buffer at W9; no segment writes an argument, so each argument ends as launched.
-/
import proofs.«119303_j10565619548474_1_alg».proof.Proof.KI.R0Body
import proofs.«119303_j10565619548474_1_alg».proof.Proof.KI.R1Body
import proofs.«119303_j10565619548474_1_alg».proof.Proof.Gen.KernelIdeal.Regions
import Idealize.ShloMosaic.Lib.Pipeline.RegionsLoop

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The same read at the TensorCore's references: what region 0's proof data take. -/
abbrev V2 : (c : Dev nD) → (b : Ref sig .tc) → Buf (Elt F) ((c : Thread nD τ).loc b) := fun c b => W2 m ρ c b
/-- At region 0's exit: its arrays at what the pipeline leaves (the inputs as entered, the output's write-backs folded in),
    every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
/-- An input window's array is left as it was entered. -/
theorem W3_in (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))
/-- After the host stretch `hostOps1`. -/
abbrev W4 : Dev nD → Valuation τ sig (Elt F) := fun c => StableHlo.after hostOps1 (W3 m ρ c)
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
/-- After the host stretch `hostOps1_1`. -/
abbrev W5 : Dev nD → Valuation τ sig (Elt F) := fun c => StableHlo.after hostOps1_1 (W4 m ρ c)
theorem W5_of (c : Dev nD) (r : Ref sig .tc) (h : r ∉ hostOps1_1_W) : W5 m ρ c (Proc.devRef .tc r) = W4 m ρ c (Proc.devRef .tc r) :=
  StableHlo.after_of_writes_sub hostOps1_1 _ hostOps1_1_writes h
/-- The same read at the TensorCore's references: what region 1's proof data take. -/
abbrev V5 : (c : Dev nD) → (b : Ref sig .tc) → Buf (Elt F) ((c : Thread nD τ).loc b) := fun c b => W5 m ρ c b
/-- At region 1's exit: its arrays at what the pipeline leaves (the inputs as entered, the output's write-backs folded in),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array is left as it was entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After the host stretch `hostOps2_1`. -/
abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
/-- After the host stretch `hostOps2_2`. -/
abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h

/-! ## No segment writes an argument -/

theorem W9_main_arg0 (c : Dev nD) : W9 m ρ c (Proc.devRef .tc main_arg0) = m ((c : Thread nD τ).loc main_arg0) :=
  (W9_of m ρ c main_arg0 (by decide)).trans <| (W8_of m ρ c main_arg0 (by decide)).trans <| (W7_of m ρ c main_arg0 (by decide)).trans <| (W6_of_ne m ρ c main_arg0 (by decide)).trans <|
    (W5_of m ρ c main_arg0 (by decide)).trans <| (W4_of m ρ c main_arg0 (by decide)).trans <| (W3_of_ne m ρ c main_arg0 (by decide)).trans <| (W2_of m ρ c main_arg0 (by decide)).trans <| (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <| (W8_of m ρ c main_arg1 (by decide)).trans <| (W7_of m ρ c main_arg1 (by decide)).trans <| (W6_in m ρ c 0 rfl).trans <|
    (W5_of m ρ c main_arg1 (by decide)).trans <| (W4_of m ρ c main_arg1 (by decide)).trans <| (W3_in m ρ c 0 rfl).trans <| (W2_of m ρ c main_arg1 (by decide)).trans <| (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <| (W8_of m ρ c main_arg2 (by decide)).trans <| (W7_of m ρ c main_arg2 (by decide)).trans <| (W6_of_ne m ρ c main_arg2 (by decide)).trans <|
    (W5_of m ρ c main_arg2 (by decide)).trans <| (W4_of m ρ c main_arg2 (by decide)).trans <| (W3_of_ne m ρ c main_arg2 (by decide)).trans <| (W2_of m ρ c main_arg2 (by decide)).trans <| (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <| (W8_of m ρ c main_arg3 (by decide)).trans <| (W7_of m ρ c main_arg3 (by decide)).trans <| (W6_of_ne m ρ c main_arg3 (by decide)).trans <|
    (W5_of m ρ c main_arg3 (by decide)).trans <| (W4_of m ρ c main_arg3 (by decide)).trans <| (W3_of_ne m ρ c main_arg3 (by decide)).trans <| (W2_of m ρ c main_arg3 (by decide)).trans <| (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <| (W8_of m ρ c main_arg4 (by decide)).trans <| (W7_of m ρ c main_arg4 (by decide)).trans <| (W6_of_ne m ρ c main_arg4 (by decide)).trans <|
    (W5_of m ρ c main_arg4 (by decide)).trans <| (W4_of m ρ c main_arg4 (by decide)).trans <| (W3_of_ne m ρ c main_arg4 (by decide)).trans <| (W2_of m ρ c main_arg4 (by decide)).trans <| (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <| (W8_of m ρ c main_arg5 (by decide)).trans <| (W7_of m ρ c main_arg5 (by decide)).trans <| (W6_of_ne m ρ c main_arg5 (by decide)).trans <|
    (W5_of m ρ c main_arg5 (by decide)).trans <| (W4_of m ρ c main_arg5 (by decide)).trans <| (W3_of_ne m ρ c main_arg5 (by decide)).trans <| (W2_of m ρ c main_arg5 (by decide)).trans <| (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <| (W8_of m ρ c main_arg6 (by decide)).trans <| (W7_of m ρ c main_arg6 (by decide)).trans <| (W6_of_ne m ρ c main_arg6 (by decide)).trans <|
    (W5_of m ρ c main_arg6 (by decide)).trans <| (W4_of m ρ c main_arg6 (by decide)).trans <| (W3_of_ne m ρ c main_arg6 (by decide)).trans <| (W2_of m ρ c main_arg6 (by decide)).trans <| (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <| (W8_of m ρ c main_arg7 (by decide)).trans <| (W7_of m ρ c main_arg7 (by decide)).trans <| (W6_of_ne m ρ c main_arg7 (by decide)).trans <|
    (W5_of m ρ c main_arg7 (by decide)).trans <| (W4_of m ρ c main_arg7 (by decide)).trans <| (W3_of_ne m ρ c main_arg7 (by decide)).trans <| (W2_of m ρ c main_arg7 (by decide)).trans <| (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <| (W8_of m ρ c main_arg8 (by decide)).trans <| (W7_of m ρ c main_arg8 (by decide)).trans <| (W6_of_ne m ρ c main_arg8 (by decide)).trans <|
    (W5_of m ρ c main_arg8 (by decide)).trans <| (W4_of m ρ c main_arg8 (by decide)).trans <| (W3_of_ne m ρ c main_arg8 (by decide)).trans <| (W2_of m ρ c main_arg8 (by decide)).trans <| (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <| (W8_of m ρ c main_arg9 (by decide)).trans <| (W7_of m ρ c main_arg9 (by decide)).trans <| (W6_of_ne m ρ c main_arg9 (by decide)).trans <|
    (W5_of m ρ c main_arg9 (by decide)).trans <| (W4_of m ρ c main_arg9 (by decide)).trans <| (W3_of_ne m ρ c main_arg9 (by decide)).trans <| (W2_of m ρ c main_arg9 (by decide)).trans <| (W1_of m ρ c main_arg9 (by decide)).trans rfl

/-! ## The proof data family and the thread state -/

/-- No pallas_call has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := StableHlo.held (c : Thread nD τ) (Pipeline.ucRefs τ sig) (W9 m ρ c)

/-! ## The regions as segments -/

set_option backward.isDefEq.respectTransparency.types false in
/-- Region 0 over the thread state: entered from every unscoped buffer at W2, left at W3. Its arrays are split out
    of the unscoped buffers and put back at what the write-backs leave; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V2 m ρ) c).trans hgive
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out
    of the unscoped buffers and put back at what the write-backs leave; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V5 m ρ) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)) ]

set_option backward.isDefEq.respectTransparency.types false in
/-- From any memory with zero counters every weakly fair execution of @main terminates, nothing faulting, with
    every unscoped buffer of every core at W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => sep_mono .rfl (show R (F := F) c ⊢ iprop(∃ W, owes (c : Thread nD τ) (0 : CellTallies nD τ sig Unit) W) from by
        iintro ⟨-, Ho⟩; iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      show iprop(StableHlo.held (c : Thread nD τ) (Pipeline.ucRefs τ sig) (W9 m ρ c) ∗ SI s') ⊢ _
      unfold StableHlo.held
      iintro ⟨Hh, HSI⟩
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

end Cert.KernelIdeal.Layer

end
-- ==== Proof.Spec.lean ====
/-
  One graph-convolution layer, entry by entry, over the extended reals:
      out[r, j] = max( (Σ_k a[r, k] · h[k, j]) + b[j], 0 )
  with a the 16384 × 16384 adjacency, h the 16384 × 64 features and b the 64 biases. Both programs compute two of
  these, each followed by a small dense product. The kernel forms the sum over k in 8 blocks of 2048, the
  reference in one piece: sum_blocks is the regrouping (addition of extended reals is commutative and
  associative, so no finiteness is needed).
-/
import Mathlib.Data.EReal.Basic
import Mathlib.Algebra.BigOperators.Fin
import Mathlib.Algebra.Order.BigOperators.Group.Finset

namespace Cert.GcnSpec

open Finset

/-- The layer at output entry (r, j). -/
noncomputable def layerAt (a : Fin 16384 → Fin 16384 → EReal) (h : Fin 16384 → Fin 64 → EReal) (b : Fin 64 → EReal)
    (r : Fin 16384) (j : Fin 64) : EReal :=
  max ((∑ k : Fin 16384, a r k * h k j) + b j) 0

/-- Column index 2048·kb + kk of block kb. -/
def colOf (kb : Fin 8) (kk : Fin 2048) : Fin 16384 := ⟨2048 * kb.val + kk.val, by omega⟩

/-- A sum over the 16384 columns is the sum over the 8 blocks of the sums inside each block. -/
theorem sum_blocks (f : Fin 16384 → EReal) :
    ∑ k : Fin 16384, f k = ∑ kb : Fin 8, ∑ kk : Fin 2048, f (colOf kb kk) := by
  rw [← Finset.sum_product' (s := Finset.univ) (t := Finset.univ) (f := fun kb kk => f (colOf kb kk)), Finset.univ_product_univ]
  symm
  refine Fintype.sum_equiv (finProdFinEquiv (m := 8) (n := 2048)) _ _ ?_
  rintro ⟨kb, kk⟩
  refine congrArg f (Fin.ext ?_)
  simp only [colOf, finProdFinEquiv_apply_val]
  omega

/-- The partial sums the kernel's accumulator runs through: after step k (0-based) it holds the first k + 1 block
    sums, the first added to zero. -/
noncomputable def accAfter (g : ℕ → EReal) : ℕ → EReal
  | 0 => 0 + g 0
  | k + 1 => accAfter g k + g (k + 1)

theorem accAfter_eq_sum (g : ℕ → EReal) (k : ℕ) : accAfter g k = ∑ i ∈ Finset.range (k + 1), g i := by
  induction k with
  | zero => simp [accAfter]
  | succ k ih => rw [accAfter, ih, Finset.sum_range_succ (n := k + 1)]

/-- After the eighth step the accumulator holds the whole sum over the 8 blocks. -/
theorem accAfter_seven (g : Fin 8 → EReal) :
    accAfter (fun k => if hk : k < 8 then g ⟨k, hk⟩ else 0) 7 = ∑ kb : Fin 8, g kb := by
  rw [accAfter_eq_sum]
  show ∑ i ∈ Finset.range 8, (fun k => if hk : k < 8 then g ⟨k, hk⟩ else 0) i = _
  rw [← Fin.sum_univ_eq_sum_range (fun k => if hk : k < 8 then g ⟨k, hk⟩ else 0) 8]
  exact Finset.sum_congr rfl fun kb _ => by simp [kb.isLt]

end Cert.GcnSpec
-- ==== Proof.KI.R0Value.lean ====
/-
  Region 0 (one graph-convolution layer), what it leaves in its output array, entry by entry, over the
  extended reals. The grid point t = 8·i + k stages tile (i, k) of the adjacency and tile k of the features; the
  accumulator starts from zero at k = 0 and takes the tile product at every k, so after point t its entry (p, q)
  holds the first k + 1 block shares of the sum  Σ_col a[2048·i + p, col] · h[col, q]  (a block share is the part
  of the sum over the 2048 columns of one block); at k = 7 the eight shares are the whole sum over the 16384
  columns (addition of extended reals is commutative and associative), and the output tile takes
  max(sum + bias, 0). The output's tiles cover the array, each written back once, at the last step of its row tile.
-/
import proofs.«119303_j10565619548474_1_alg».proof.Proof.KI.R0Body
import proofs.«119303_j10565619548474_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What each case's stores leave, as payloads of the staged tiles -/

section Pieces

variable {F : FTy → Type} [FloatOps F]

theorem hz2 : (![0, 0] : Fin 2 → Nat) = fun _ => 0 := funext fun a => by fin_cases a <;> rfl

/-- The first contraction step zeroes the accumulator, reads it back and adds the tile product. -/
theorem sout_A (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x2048 .f32) (x1 : Vec F S2048x64 .f32) (x2 : Vec F S1x64 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x64) hz2, View.readCov_unit_zero (S := S2048x64) _ hz2]
  simp only [View.readAt_eq_ld, harg2.read_unread, harg3.read_unread, View.ld_unit_zero (S := S2048x2048) hz2, View.ld_unit_zero (S := S2048x64) hz2]

/-- A middle step adds the tile product to what the accumulator held. -/
theorem sout_B (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x2048 .f32) (x1 : Vec F S2048x64 .f32) (x2 : Vec F S1x64 .f32) (xs0 : Vec F S2048x64 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread, View.ld_unit_zero (S := S2048x2048) hz2, View.ld_unit_zero (S := S2048x64) hz2]

/-- So does the last step, -/
theorem sout_C (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S2048x2048) hz2, View.ld_unit_zero (S := S2048x64) hz2]

/-- which then stores the epilogue of the finished accumulator into the output tile. -/
theorem out_C (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x2048 .f32) (x1 : Vec F S2048x64 .f32) (x2 : Vec F S1x64 .f32) (xs0 : Vec F S2048x64 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.readCov_unit_zero (S := S2048x64) _ hz2, View.ld_unit_zero (S := S2048x2048) hz2, View.ld_unit_zero (S := S2048x64) hz2, View.ld_unit_zero (S := S1x64) hz2]

end Pieces

/-! ## The payloads over the extended reals, entry by entry -/

section AtIdeal

/-- The reset stores zero everywhere. -/
theorem pay1_apply (p : Fin 2048) (q : Fin 64) :
    (k0_pay1 (F := Ideal) : S2048x64.Idx → EReal) (ix2 p q) = 0 := by
  unfold k0_pay1
  simp only [shapeCast_self]
  exact Ideal.ofBits_zero_f32

theorem lhs_pay2_0 (i : S2048x64.Idx) (k : dot_S2048x2048_S2048x64_S2048x64_1_0_0_1_n_n.contr.Idx) :
    (dot_S2048x2048_S2048x64_S2048x64_1_0_0_1_n_n.lhsIdx i k 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_pay2_1 (i : S2048x64.Idx) (k : dot_S2048x2048_S2048x64_S2048x64_1_0_0_1_n_n.contr.Idx) :
    (dot_S2048x2048_S2048x64_S2048x64_1_0_0_1_n_n.lhsIdx i k 1).val = (k ⟨0, by decide⟩).val :=
  dot_S2048x2048_S2048x64_S2048x64_1_0_0_1_n_n.lhsIdx_val_of_single rfl i k
theorem rhs_pay2_0 (i : S2048x64.Idx) (k : dot_S2048x2048_S2048x64_S2048x64_1_0_0_1_n_n.contr.Idx) :
    (dot_S2048x2048_S2048x64_S2048x64_1_0_0_1_n_n.rhsIdx i k 0).val = (k ⟨0, by decide⟩).val :=
  dot_S2048x2048_S2048x64_S2048x64_1_0_0_1_n_n.rhsIdx_val_of_single rfl i k
theorem rhs_pay2_1 (i : S2048x64.Idx) (k : dot_S2048x2048_S2048x64_S2048x64_1_0_0_1_n_n.contr.Idx) :
    (dot_S2048x2048_S2048x64_S2048x64_1_0_0_1_n_n.rhsIdx i k 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- One accumulation step at entry (p, q): the accumulator there plus the row p of the left tile times the
    column q of the right tile (the narrowing to bf16 is the identity over the extended reals, and the
    matrix unit's product is the exact sum over the 2048 contraction indices). -/
theorem pay2_apply (x0 : S2048x2048.Idx → EReal) (x1 : S2048x64.Idx → EReal) (acc : S2048x64.Idx → EReal) (p : Fin 2048) (q : Fin 64) :
    (k0_pay2 (F := Ideal) x0 x1 acc : S2048x64.Idx → EReal) (ix2 p q)
      = acc (ix2 p q) + ∑ kk : Fin 2048, x0 (ix2 p kk) * x1 (ix2 kk q) := by
  unfold k0_pay2
  simp only [shapeCast_self]
  refine congrArg (acc (ix2 p q) + ·) ?_
  refine (Ideal.matmul_constant_zero_apply dot_S2048x2048_S2048x64_S2048x64_1_0_0_1_n_n none _ _ (ix2 p q)).trans ?_
  rw [← Equiv.sum_comp (contrEquiv1 dot_S2048x2048_S2048x64_S2048x64_1_0_0_1_n_n 2048 rfl rfl).symm]
  refine Finset.sum_congr rfl fun kk _ => ?_
  have hk := contrEquiv1_symm_val dot_S2048x2048_S2048x64_S2048x64_1_0_0_1_n_n 2048 rfl rfl kk
  have el : dot_S2048x2048_S2048x64_S2048x64_1_0_0_1_n_n.lhsIdx (ix2 p q) ((contrEquiv1 dot_S2048x2048_S2048x64_S2048x64_1_0_0_1_n_n 2048 rfl rfl).symm kk) = ix2 p kk := funext fun a => Fin.ext (by
    match a with
    | ⟨0, _⟩ => exact lhs_pay2_0 _ _
    | ⟨1, _⟩ => exact (lhs_pay2_1 _ _).trans hk)
  have er : dot_S2048x2048_S2048x64_S2048x64_1_0_0_1_n_n.rhsIdx (ix2 p q) ((contrEquiv1 dot_S2048x2048_S2048x64_S2048x64_1_0_0_1_n_n 2048 rfl rfl).symm kk) = ix2 kk q := funext fun a => Fin.ext (by
    match a with
    | ⟨0, _⟩ => exact (rhs_pay2_0 _ _).trans hk
    | ⟨1, _⟩ => exact rhs_pay2_1 _ _)
  show x0 (dot_S2048x2048_S2048x64_S2048x64_1_0_0_1_n_n.lhsIdx (ix2 p q) _) * x1 (dot_S2048x2048_S2048x64_S2048x64_1_0_0_1_n_n.rhsIdx (ix2 p q) _) = _
  rw [el, er]

/-- The epilogue at entry (p, q): the accumulator plus the bias of column q, clamped below at zero. -/
theorem pay3_apply (acc : S2048x64.Idx → EReal) (b : S1x64.Idx → EReal) (p : Fin 2048) (q : Fin 64) :
    (k0_pay3 (F := Ideal) acc b : S2048x64.Idx → EReal) (ix2 p q) = max (acc (ix2 p q) + b (ix2 (0 : Fin 1) q)) 0 := by
  unfold k0_pay3
  simp only [shapeCast_self]
  show max (acc (ix2 p q) + broadcastTo S2048x64 b broadcasts_S1x64_S2048x64 (ix2 p q)) (Ideal.ofBits .f32 0x00000000#32) = _
  rw [broadcastTo_1b_ab_apply b broadcasts_S1x64_S2048x64 p q, Ideal.ofBits_zero_f32]

end AtIdeal

/-! ## The arrays the region reads and the tiles staged at a point -/

section Blocks

variable (V : (c : Dev nD) → (b : Ref sig .tc) → Buf (Elt Ideal) ((c : Thread nD τ).loc b))

/-- The adjacency, the features and the bias row as the region finds them, -/
abbrev Aarr (c : Dev nD) : S16384x16384.Idx → EReal := V c main_arg1
abbrev Harr (c : Dev nD) : S16384x64.Idx → EReal := V c main_v0
abbrev Barr (c : Dev nD) : S1x64.Idx → EReal := V c main_call0_v0
/-- and the three tiles staged at point t. -/
abbrev ablk (c : Dev nD) (t : Fin cfg0.N) : S2048x2048.Idx → EReal := iblk0 (F := Ideal) V c 0 t
abbrev hblk (c : Dev nD) (t : Fin cfg0.N) : S2048x64.Idx → EReal := iblk0 (F := Ideal) V c 1 t
abbrev bblk (c : Dev nD) (t : Fin cfg0.N) : S1x64.Idx → EReal := iblk0 (F := Ideal) V c 2 t

/-- Point t = 8·i + k: its row tile i and its contraction step k. -/
def tileOf (t : Fin cfg0.N) : Fin 8 := ⟨t.val / 8, by have h := t.isLt; have hN : cfg0.N = 64 := N_0; omega⟩
def stepOf (t : Fin cfg0.N) : Fin 8 := ⟨t.val % 8, by omega⟩

/-- The index maps, decided over the grid: the adjacency tile is block (i, k), the feature tile block (k, 0), the
    bias row block (0, 0), the output tile block (i, 0). -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = t.val / 8 ∧ win0_3.index t 1 = 0 :=
  (by decide +kernel : ∀ t : Fin grid0.N, win0_3.index t 0 = t.val / 8 ∧ win0_3.index t 1 = 0)

/-- Entry (p, kk) of the adjacency tile at point t is the adjacency at row 2048·i + p, column 2048·k + kk. -/
theorem ablk_apply (c : Dev nD) (t : Fin cfg0.N) (p kk : Fin 2048) :
    ablk V c t (ix2 p kk) = Aarr V c (ix2 (Cert.GcnSpec.colOf (tileOf t) p) (Cert.GcnSpec.colOf (stepOf t) kk)) := by
  have hi := idx0_0 t
  show (((cfg0.win 0).blk t).view.read (Elt Ideal) (V c (Pipeline.arrRef spec0 0))) (ix2 p kk) = _
  rw [View.read_apply]
  show V c main_arg1 _ = V c main_arg1 _
  congr 1
  funext a
  apply Fin.ext
  match a with
  | ⟨0, _⟩ => show win0_0.index t 0 * 2048 + 1 * p.val = 2048 * (t.val / 8) + p.val; rw [hi.1]; omega
  | ⟨1, _⟩ => show win0_0.index t 1 * 2048 + 1 * kk.val = 2048 * (t.val % 8) + kk.val; rw [hi.2]; omega

/-- Entry (kk, q) of the feature tile at point t is the features at row 2048·k + kk, column q. -/
theorem hblk_apply (c : Dev nD) (t : Fin cfg0.N) (kk : Fin 2048) (q : Fin 64) :
    hblk V c t (ix2 kk q) = Harr V c (ix2 (Cert.GcnSpec.colOf (stepOf t) kk) q) := by
  have hi := idx0_1 t
  show (((cfg0.win 1).blk t).view.read (Elt Ideal) (V c (Pipeline.arrRef spec0 1))) (ix2 kk q) = _
  rw [View.read_apply]
  show V c main_v0 _ = V c main_v0 _
  congr 1
  funext a
  apply Fin.ext
  match a with
  | ⟨0, _⟩ => show win0_1.index t 0 * 2048 + 1 * kk.val = 2048 * (t.val % 8) + kk.val; rw [hi.1]; omega
  | ⟨1, _⟩ => show win0_1.index t 1 * 64 + 1 * q.val = q.val; rw [hi.2]; omega

/-- The bias tile is the whole bias row. -/
theorem bblk_apply (c : Dev nD) (t : Fin cfg0.N) (q : Fin 64) :
    bblk V c t (ix2 (0 : Fin 1) q) = Barr V c (ix2 (0 : Fin 1) q) := by
  have hi := idx0_2 t
  show (((cfg0.win 2).blk t).view.read (Elt Ideal) (V c (Pipeline.arrRef spec0 2))) (ix2 (0 : Fin 1) q) = _
  rw [View.read_apply]
  show V c main_call0_v0 _ = V c main_call0_v0 _
  congr 1
  funext a
  apply Fin.ext
  match a with
  | ⟨0, _⟩ => show win0_2.index t 0 * 1 + 1 * 0 = 0; rw [hi.1]
  | ⟨1, _⟩ => show win0_2.index t 1 * 64 + 1 * q.val = q.val; rw [hi.2]; omega

end Blocks

/-! ## The accumulator after each point -/

section Invariant

open Cert.GcnSpec (colOf accAfter)

variable (V : (c : Dev nD) → (b : Ref sig .tc) → Buf (Elt Ideal) ((c : Thread nD τ).loc b))

/-- Block kb's share of entry (row, q) of the product: the sum over the 2048 columns of that block. -/
def blockTerm (c : Dev nD) (row : Fin 16384) (q : Fin 64) (kb : Fin 8) : EReal :=
  ∑ kk : Fin 2048, Aarr V c (ix2 row (colOf kb kk)) * Harr V c (ix2 (colOf kb kk) q)

/-- The same over the naturals (zero past the eighth block, which no point reaches). -/
abbrev blockSum (c : Dev nD) (row : Fin 16384) (q : Fin 64) : ℕ → EReal :=
  fun k => if hk : k < 8 then blockTerm V c row q ⟨k, hk⟩ else 0

/-- The tile product at point t, entry (p, q), is the share of block k of row 2048·i + p. -/
theorem step_sum (c : Dev nD) (t : Fin cfg0.N) (p : Fin 2048) (q : Fin 64) :
    ∑ kk : Fin 2048, ablk V c t (ix2 p kk) * hblk V c t (ix2 kk q) = blockSum V c (colOf (tileOf t) p) q (t.val % 8) := by
  show _ = if hk : t.val % 8 < 8 then blockTerm V c (colOf (tileOf t) p) q ⟨t.val % 8, hk⟩ else 0
  rw [dif_pos (Nat.mod_lt _ (by decide))]
  unfold blockTerm
  refine Finset.sum_congr rfl fun kk _ => ?_
  rw [ablk_apply, hblk_apply]
  rfl

/-- After a first step the accumulator holds zero plus the tile product; -/
theorem acc_A (c : Dev nD) (t : Fin cfg0.N) (h0 : t.val % 8 = 0) (h1 : ¬t.val % 8 = 7) (p : Fin 2048) (q : Fin 64) :
    ((outsAt0 (F := Ideal) V c t.val t.isLt).2 : S2048x64.Idx → EReal) (ix2 p q)
      = 0 + ∑ kk : Fin 2048, ablk V c t (ix2 p kk) * hblk V c t (ix2 kk q) := by
  rw [outsAt0_A V c t h0 h1]; dsimp only
  refine (congrFun (sout_A (F := Ideal) c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) (ix2 p q)).trans ?_
  refine (pay2_apply (ablk V c t) (hblk V c t) (k0_pay1 (F := Ideal)) p q).trans ?_
  rw [pay1_apply]

/-- after a middle step what the point before left plus the tile product; -/
theorem acc_B (c : Dev nD) (t : Fin cfg0.N) (h0 : ¬t.val % 8 = 0) (h1 : ¬t.val % 8 = 7) (p : Fin 2048) (q : Fin 64) :
    ((outsAt0 (F := Ideal) V c t.val t.isLt).2 : S2048x64.Idx → EReal) (ix2 p q)
      = ((outsAt0 (F := Ideal) V c (t.val - 1) (Nat.lt_of_le_of_lt (Nat.sub_le _ _) t.isLt)).2 : S2048x64.Idx → EReal) (ix2 p q) + ∑ kk : Fin 2048, ablk V c t (ix2 p kk) * hblk V c t (ix2 kk q) := by
  rw [outsAt0_B V c t h0 h1]; dsimp only
  refine (congrFun (sout_B (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 (F := Ideal) V c (t.val - 1) (Nat.lt_of_le_of_lt (Nat.sub_le _ _) t.isLt)).2) (ix2 p q)).trans ?_
  exact pay2_apply (ablk V c t) (hblk V c t) (outsAt0 (F := Ideal) V c (t.val - 1) (Nat.lt_of_le_of_lt (Nat.sub_le _ _) t.isLt)).2 p q

/-- and after a last step the same, -/
theorem acc_C (c : Dev nD) (t : Fin cfg0.N) (h0 : ¬t.val % 8 = 0) (h1 : t.val % 8 = 7) (p : Fin 2048) (q : Fin 64) :
    ((outsAt0 (F := Ideal) V c t.val t.isLt).2 : S2048x64.Idx → EReal) (ix2 p q)
      = ((outsAt0 (F := Ideal) V c (t.val - 1) (Nat.lt_of_le_of_lt (Nat.sub_le _ _) t.isLt)).2 : S2048x64.Idx → EReal) (ix2 p q) + ∑ kk : Fin 2048, ablk V c t (ix2 p kk) * hblk V c t (ix2 kk q) := by
  rw [outsAt0_C V c t h0 h1]; dsimp only
  refine (congrFun (sout_C (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 (F := Ideal) V c (t.val - 1) (Nat.lt_of_le_of_lt (Nat.sub_le _ _) t.isLt)).2) (ix2 p q)).trans ?_
  exact pay2_apply (ablk V c t) (hblk V c t) (outsAt0 (F := Ideal) V c (t.val - 1) (Nat.lt_of_le_of_lt (Nat.sub_le _ _) t.isLt)).2 p q

/-- while the output tile takes the accumulator plus the bias, clamped below at zero. -/
theorem tile_C (c : Dev nD) (t : Fin cfg0.N) (h0 : ¬t.val % 8 = 0) (h1 : t.val % 8 = 7) (p : Fin 2048) (q : Fin 64) :
    ((outsAt0 (F := Ideal) V c t.val t.isLt).1 : S2048x64.Idx → EReal) (ix2 p q)
      = max (((outsAt0 (F := Ideal) V c t.val t.isLt).2 : S2048x64.Idx → EReal) (ix2 p q) + Barr V c (ix2 (0 : Fin 1) q)) 0 := by
  rw [outsAt0_C V c t h0 h1]; dsimp only
  rw [out_C (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 (F := Ideal) V c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 (F := Ideal) V c (t.val - 1) (Nat.lt_of_le_of_lt (Nat.sub_le _ _) t.isLt)).2]
  refine (pay3_apply (k0_pay2 (F := Ideal) (iblk0 V c 0 t) (iblk0 V c 1 t) (outsAt0 (F := Ideal) V c (t.val - 1) (Nat.lt_of_le_of_lt (Nat.sub_le _ _) t.isLt)).2) (bblk V c t) p q).trans ?_
  rw [bblk_apply]

theorem outs_congr (c : Dev nD) (a b : ℕ) (ha : a < cfg0.N) (hb : b < cfg0.N) (e : a = b) :
    outsAt0 (F := Ideal) V c a ha = outsAt0 (F := Ideal) V c b hb := by subst e; rfl

/-- After point n = 8·i + k the accumulator's entry (p, q) holds the first k + 1 block shares of row 2048·i + p,
    the first added to zero, in the order of the steps. -/
theorem acc_eq (c : Dev nD) : ∀ (n : ℕ) (hn : n < cfg0.N) (p : Fin 2048) (q : Fin 64),
    ((outsAt0 (F := Ideal) V c n hn).2 : S2048x64.Idx → EReal) (ix2 p q)
      = accAfter (blockSum V c (colOf (tileOf ⟨n, hn⟩) p) q) (n % 8)
  | 0, hn, p, q => by
    refine (acc_A V c ⟨0, hn⟩ rfl (by show ¬(0 % 8 = 7); decide) p q).trans ?_
    rw [step_sum]
    rfl
  | n + 1, hn, p, q => by
    by_cases h0 : (n + 1) % 8 = 0
    · have h1 : ¬(n + 1) % 8 = 7 := by omega
      refine (acc_A V c ⟨n + 1, hn⟩ h0 h1 p q).trans ?_
      rw [step_sum]
      show 0 + blockSum V c _ q ((n + 1) % 8) = accAfter _ ((n + 1) % 8)
      rw [h0]
      rfl
    · have hn' : n < cfg0.N := Nat.lt_of_succ_lt hn
      have ih := acc_eq c n hn' p q
      have htile : tileOf ⟨n, hn'⟩ = tileOf ⟨n + 1, hn⟩ := Fin.ext (by show n / 8 = (n + 1) / 8; omega)
      have hstep : (n + 1) % 8 = n % 8 + 1 := by omega
      have hprev : ((outsAt0 (F := Ideal) V c ((⟨n + 1, hn⟩ : Fin cfg0.N).val - 1) (Nat.lt_of_le_of_lt (Nat.sub_le _ _) (⟨n + 1, hn⟩ : Fin cfg0.N).isLt)).2 : S2048x64.Idx → EReal) (ix2 p q)
          = accAfter (blockSum V c (colOf (tileOf ⟨n + 1, hn⟩) p) q) (n % 8) := by
        rw [outs_congr V c _ n _ hn' (Nat.add_sub_cancel n 1), ih, htile]
      have hsum := step_sum V c ⟨n + 1, hn⟩ p q
      by_cases h1 : (n + 1) % 8 = 7
      · refine (acc_C V c ⟨n + 1, hn⟩ h0 h1 p q).trans ?_
        rw [hprev, hsum]
        show _ + blockSum V c _ q ((n + 1) % 8) = accAfter _ ((n + 1) % 8)
        rw [hstep]
        rfl
      · refine (acc_B V c ⟨n + 1, hn⟩ h0 h1 p q).trans ?_
        rw [hprev, hsum]
        show _ + blockSum V c _ q ((n + 1) % 8) = accAfter _ ((n + 1) % 8)
        rw [hstep]
        rfl

end Invariant

/-! ## The output array after the region -/

section Final

open Cert.GcnSpec (colOf accAfter layerAt)

variable (V : (c : Dev nD) → (b : Ref sig .tc) → Buf (Elt Ideal) ((c : Thread nD τ).loc b))

/-- The layer's value, as contents of the output array. -/
def layerArr (c : Dev nD) : S16384x64.Idx → EReal := fun i =>
  layerAt (fun r k => Aarr V c (ix2 r k)) (fun k j => Harr V c (ix2 k j)) (fun j => Barr V c (ix2 (0 : Fin 1) j))
    ⟨(i 0).val, (i 0).isLt⟩ ⟨(i 1).val, (i 1).isLt⟩

theorem layerArr_of (c : Dev nD) (i : S16384x64.Idx) (r : Fin 16384) (j : Fin 64) (h0 : (i 0).val = r.val) (h1 : (i 1).val = j.val) :
    layerArr V c i = layerAt (fun r k => Aarr V c (ix2 r k)) (fun k j => Harr V c (ix2 k j)) (fun j => Barr V c (ix2 (0 : Fin 1) j)) r j := by
  have e0 : (⟨(i 0).val, (i 0).isLt⟩ : Fin 16384) = r := Fin.ext h0
  have e1 : (⟨(i 1).val, (i 1).isLt⟩ : Fin 64) = j := Fin.ext h1
  unfold layerArr
  rw [e0, e1]

/-- At a last step the output tile's entry (p, q) is the layer at row 2048·i + p: the eight block shares are the
    whole sum over the 16384 columns. -/
theorem tile_value (c : Dev nD) (t : Fin cfg0.N) (h7 : t.val % 8 = 7) (p : Fin 2048) (q : Fin 64) :
    ((outsAt0 (F := Ideal) V c t.val t.isLt).1 : S2048x64.Idx → EReal) (ix2 p q)
      = layerAt (fun r k => Aarr V c (ix2 r k)) (fun k j => Harr V c (ix2 k j)) (fun j => Barr V c (ix2 (0 : Fin 1) j)) (colOf (tileOf t) p) q := by
  rw [tile_C V c t (by omega) h7 p q, acc_eq V c t.val t.isLt p q, h7]
  show max (accAfter (fun k => if hk : k < 8 then blockTerm V c (colOf (tileOf t) p) q ⟨k, hk⟩ else 0) 7 + _) 0 = _
  rw [Cert.GcnSpec.accAfter_seven (blockTerm V c (colOf (tileOf t) p) q)]
  unfold layerAt
  rw [Cert.GcnSpec.sum_blocks (fun k => Aarr V c (ix2 (colOf (tileOf t) p) k) * Harr V c (ix2 k q))]
  rfl

/-- What a last step writes back is its block of the layer's value. -/
theorem flushed_eq (c : Dev nD) (t : Fin cfg0.N) (hf : (cfg0.win 3).flush t = true) :
    (dat0 (F := Ideal) V c).flushed 3 t = ((cfg0.win 3).blk t).view.read (Elt Ideal) (layerArr V c) := by
  have h7 : t.val % 8 = 7 := (flush0_3 t).mp hf
  have hi := idx0_3 t
  funext y
  obtain ⟨p, q, rfl⟩ : ∃ (p : Fin 2048) (q : Fin 64), y = ix2 p q := ⟨_, _, eq_ix2 (n0 := 2048) (n1 := 64) y⟩
  show (cfg0.win 3).cut (cfg0.grid.coords t) ((dat0 (F := Ideal) V c).after 3 t) (ix2 p q) = _
  rw [after0_3 V c t, View.read_apply]
  show ((outsAt0 (F := Ideal) V c t.val t.isLt).1 : S2048x64.Idx → EReal) (ix2 p q) = layerArr V c _
  rw [tile_value V c t h7 p q]
  symm
  refine layerArr_of V c _ (colOf (tileOf t) p) q ?_ ?_
  · show win0_3.index t 0 * 2048 + 1 * p.val = 2048 * (t.val / 8) + p.val
    rw [hi.1]; omega
  · show win0_3.index t 1 * 64 + 1 * q.val = q.val
    rw [hi.2]; omega

theorem xsz0_3 : ∀ t : Fin cfg0.N, win0_3.xsize (grid0.coords t) 0 = 2048 ∧ win0_3.xsize (grid0.coords t) 1 = 64 :=
  (by decide +kernel : ∀ t : Fin grid0.N, win0_3.xsize (grid0.coords t) 0 = 2048 ∧ win0_3.xsize (grid0.coords t) 1 = 64)

/-- Row r of the output lies in the tile that the last step of row tile r / 2048 writes back. -/
theorem cover3 (i : S16384x64.Idx) : ∃ t : Fin cfg0.N, (cfg0.win 3).flush t = true ∧ i ∈ ((cfg0.win 3).blk t).view.set := by
  have h0 : (i 0).val < 16384 := idx2_lt0 i
  have h1 : (i 1).val < 64 := idx2_lt1 i
  have hN : cfg0.N = 64 := N_0
  obtain ⟨t, ht⟩ : ∃ t : Fin cfg0.N, t.val = 8 * ((i 0).val / 2048) + 7 := ⟨⟨8 * ((i 0).val / 2048) + 7, by omega⟩, rfl⟩
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [(idx0_3 t).1, (xsz0_3 t).1, show win0_3.size 0 = 2048 from rfl]; omega
  | ⟨1, _⟩ =>
    show win0_3.index t 1 * win0_3.size 1 ≤ (i 1 : Nat) ∧ (i 1 : Nat) < win0_3.index t 1 * win0_3.size 1 + win0_3.xsize (grid0.coords t) 1
    rw [(idx0_3 t).2, (xsz0_3 t).2, show win0_3.size 1 = 64 from rfl]; omega

/-- So the output array ends holding the layer's value. -/
theorem arr_final (c : Dev nD) : (dat0 (F := Ideal) V c).arrAt 3 cfg0.N = layerArr V c :=
  (dat0 (F := Ideal) V c).arrAt_eq_of_cover 3 (layerArr V c) (flushed_eq V c) cover3

end Final

/-- What region 0 leaves in its output array, entry by entry: the graph-convolution layer of the adjacency,
    the features and the bias row the region was entered with. -/
theorem layer0_value (V : (c : Dev nD) → (b : Ref sig .tc) → Buf (Elt Ideal) ((c : Thread nD τ).loc b)) (c : Dev nD) (r : Fin 16384) (j : Fin 64) :
    ((dat0 (F := Ideal) V c).arrAt 3 cfg0.N : S16384x64.Idx → EReal) (ix2 r j)
      = Cert.GcnSpec.layerAt (fun r k => (V c main_arg1 : S16384x16384.Idx → EReal) (ix2 r k))
          (fun k j => (V c main_v0 : S16384x64.Idx → EReal) (ix2 k j))
          (fun j => (V c main_call0_v0 : S1x64.Idx → EReal) (ix2 0 j)) r j := by
  refine (congrFun (arr_final V c) (ix2 r j)).trans ?_
  rfl

end Cert.KernelIdeal.Layer.Region0

end
-- ==== Proof.KI.R1Value.lean ====
/-
  Region 1 (one graph-convolution layer), what it leaves in its output array, entry by entry, over the
  extended reals. The grid point t = 8·i + k stages tile (i, k) of the adjacency and tile k of the features; the
  accumulator starts from zero at k = 0 and takes the tile product at every k, so after point t its entry (p, q)
  holds the first k + 1 block shares of the sum  Σ_col a[2048·i + p, col] · h[col, q]  (a block share is the part
  of the sum over the 2048 columns of one block); at k = 7 the eight shares are the whole sum over the 16384
  columns (addition of extended reals is commutative and associative), and the output tile takes
  max(sum + bias, 0). The output's tiles cover the array, each written back once, at the last step of its row tile.
-/
import proofs.«119303_j10565619548474_1_alg».proof.Proof.KI.R1Body
import proofs.«119303_j10565619548474_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What each case's stores leave, as payloads of the staged tiles -/

section Pieces

variable {F : FTy → Type} [FloatOps F]

theorem hz2 : (![0, 0] : Fin 2 → Nat) = fun _ => 0 := funext fun a => by fin_cases a <;> rfl

/-- The first contraction step zeroes the accumulator, reads it back and adds the tile product. -/
theorem sout_A (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .f32) (x1 : Vec F S2048x64 .f32) (x2 : Vec F S1x64 .f32) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x64) hz2, View.readCov_unit_zero (S := S2048x64) _ hz2]
  simp only [View.readAt_eq_ld, harg2.read_unread, harg3.read_unread, View.ld_unit_zero (S := S2048x2048) hz2, View.ld_unit_zero (S := S2048x64) hz2]

/-- A middle step adds the tile product to what the accumulator held. -/
theorem sout_B (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .f32) (x1 : Vec F S2048x64 .f32) (x2 : Vec F S1x64 .f32) (xs0 : Vec F S2048x64 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz2]
  simp only [View.readAt_eq_ld, harg2.read_unread, harg3.read_unread, harg6.read_unread, View.ld_unit_zero (S := S2048x2048) hz2, View.ld_unit_zero (S := S2048x64) hz2]

/-- So does the last step, -/
theorem sout_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg6.read_unread, View.ld_unit_zero (S := S2048x2048) hz2, View.ld_unit_zero (S := S2048x64) hz2]

/-- which then stores the epilogue of the finished accumulator into the output tile. -/
theorem out_C (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .f32) (x1 : Vec F S2048x64 .f32) (x2 : Vec F S1x64 .f32) (xs0 : Vec F S2048x64 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread, View.readCov_unit_zero (S := S2048x64) _ hz2, View.ld_unit_zero (S := S2048x2048) hz2, View.ld_unit_zero (S := S2048x64) hz2, View.ld_unit_zero (S := S1x64) hz2]

end Pieces

/-! ## The payloads over the extended reals, entry by entry -/

section AtIdeal

/-- The reset stores zero everywhere. -/
theorem pay1_apply (p : Fin 2048) (q : Fin 64) :
    (k1_pay1 (F := Ideal) : S2048x64.Idx → EReal) (ix2 p q) = 0 := by
  unfold k1_pay1
  simp only [shapeCast_self]
  exact Ideal.ofBits_zero_f32

theorem lhs_pay2_0 (i : S2048x64.Idx) (k : dot_S2048x2048_S2048x64_S2048x64_1_0_0_1_n_n.contr.Idx) :
    (dot_S2048x2048_S2048x64_S2048x64_1_0_0_1_n_n.lhsIdx i k 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_pay2_1 (i : S2048x64.Idx) (k : dot_S2048x2048_S2048x64_S2048x64_1_0_0_1_n_n.contr.Idx) :
    (dot_S2048x2048_S2048x64_S2048x64_1_0_0_1_n_n.lhsIdx i k 1).val = (k ⟨0, by decide⟩).val :=
  dot_S2048x2048_S2048x64_S2048x64_1_0_0_1_n_n.lhsIdx_val_of_single rfl i k
theorem rhs_pay2_0 (i : S2048x64.Idx) (k : dot_S2048x2048_S2048x64_S2048x64_1_0_0_1_n_n.contr.Idx) :
    (dot_S2048x2048_S2048x64_S2048x64_1_0_0_1_n_n.rhsIdx i k 0).val = (k ⟨0, by decide⟩).val :=
  dot_S2048x2048_S2048x64_S2048x64_1_0_0_1_n_n.rhsIdx_val_of_single rfl i k
theorem rhs_pay2_1 (i : S2048x64.Idx) (k : dot_S2048x2048_S2048x64_S2048x64_1_0_0_1_n_n.contr.Idx) :
    (dot_S2048x2048_S2048x64_S2048x64_1_0_0_1_n_n.rhsIdx i k 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- One accumulation step at entry (p, q): the accumulator there plus the row p of the left tile times the
    column q of the right tile (the narrowing to bf16 is the identity over the extended reals, and the
    matrix unit's product is the exact sum over the 2048 contraction indices). -/
theorem pay2_apply (x0 : S2048x2048.Idx → EReal) (x1 : S2048x64.Idx → EReal) (acc : S2048x64.Idx → EReal) (p : Fin 2048) (q : Fin 64) :
    (k1_pay2 (F := Ideal) x0 x1 acc : S2048x64.Idx → EReal) (ix2 p q)
      = acc (ix2 p q) + ∑ kk : Fin 2048, x0 (ix2 p kk) * x1 (ix2 kk q) := by
  unfold k1_pay2
  simp only [shapeCast_self]
  refine congrArg (acc (ix2 p q) + ·) ?_
  refine (Ideal.matmul_constant_zero_apply dot_S2048x2048_S2048x64_S2048x64_1_0_0_1_n_n none _ _ (ix2 p q)).trans ?_
  rw [← Equiv.sum_comp (contrEquiv1 dot_S2048x2048_S2048x64_S2048x64_1_0_0_1_n_n 2048 rfl rfl).symm]
  refine Finset.sum_congr rfl fun kk _ => ?_
  have hk := contrEquiv1_symm_val dot_S2048x2048_S2048x64_S2048x64_1_0_0_1_n_n 2048 rfl rfl kk
  have el : dot_S2048x2048_S2048x64_S2048x64_1_0_0_1_n_n.lhsIdx (ix2 p q) ((contrEquiv1 dot_S2048x2048_S2048x64_S2048x64_1_0_0_1_n_n 2048 rfl rfl).symm kk) = ix2 p kk := funext fun a => Fin.ext (by
    match a with
    | ⟨0, _⟩ => exact lhs_pay2_0 _ _
    | ⟨1, _⟩ => exact (lhs_pay2_1 _ _).trans hk)
  have er : dot_S2048x2048_S2048x64_S2048x64_1_0_0_1_n_n.rhsIdx (ix2 p q) ((contrEquiv1 dot_S2048x2048_S2048x64_S2048x64_1_0_0_1_n_n 2048 rfl rfl).symm kk) = ix2 kk q := funext fun a => Fin.ext (by
    match a with
    | ⟨0, _⟩ => exact (rhs_pay2_0 _ _).trans hk
    | ⟨1, _⟩ => exact rhs_pay2_1 _ _)
  show x0 (dot_S2048x2048_S2048x64_S2048x64_1_0_0_1_n_n.lhsIdx (ix2 p q) _) * x1 (dot_S2048x2048_S2048x64_S2048x64_1_0_0_1_n_n.rhsIdx (ix2 p q) _) = _
  rw [el, er]

/-- The epilogue at entry (p, q): the accumulator plus the bias of column q, clamped below at zero. -/
theorem pay3_apply (acc : S2048x64.Idx → EReal) (b : S1x64.Idx → EReal) (p : Fin 2048) (q : Fin 64) :
    (k1_pay3 (F := Ideal) acc b : S2048x64.Idx → EReal) (ix2 p q) = max (acc (ix2 p q) + b (ix2 (0 : Fin 1) q)) 0 := by
  unfold k1_pay3
  simp only [shapeCast_self]
  show max (acc (ix2 p q) + broadcastTo S2048x64 b broadcasts_S1x64_S2048x64 (ix2 p q)) (Ideal.ofBits .f32 0x00000000#32) = _
  rw [broadcastTo_1b_ab_apply b broadcasts_S1x64_S2048x64 p q, Ideal.ofBits_zero_f32]

end AtIdeal

/-! ## The arrays the region reads and the tiles staged at a point -/

section Blocks

variable (V : (c : Dev nD) → (b : Ref sig .tc) → Buf (Elt Ideal) ((c : Thread nD τ).loc b))

/-- The adjacency, the features and the bias row as the region finds them, -/
abbrev Aarr (c : Dev nD) : S16384x16384.Idx → EReal := V c main_arg1
abbrev Harr (c : Dev nD) : S16384x64.Idx → EReal := V c main_v2
abbrev Barr (c : Dev nD) : S1x64.Idx → EReal := V c main_call1_v0
/-- and the three tiles staged at point t. -/
abbrev ablk (c : Dev nD) (t : Fin cfg1.N) : S2048x2048.Idx → EReal := iblk1 (F := Ideal) V c 0 t
abbrev hblk (c : Dev nD) (t : Fin cfg1.N) : S2048x64.Idx → EReal := iblk1 (F := Ideal) V c 1 t
abbrev bblk (c : Dev nD) (t : Fin cfg1.N) : S1x64.Idx → EReal := iblk1 (F := Ideal) V c 2 t

/-- Point t = 8·i + k: its row tile i and its contraction step k. -/
def tileOf (t : Fin cfg1.N) : Fin 8 := ⟨t.val / 8, by have h := t.isLt; have hN : cfg1.N = 64 := N_1; omega⟩
def stepOf (t : Fin cfg1.N) : Fin 8 := ⟨t.val % 8, by omega⟩

/-- The index maps, decided over the grid: the adjacency tile is block (i, k), the feature tile block (k, 0), the
    bias row block (0, 0), the output tile block (i, 0). -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- Entry (p, kk) of the adjacency tile at point t is the adjacency at row 2048·i + p, column 2048·k + kk. -/
theorem ablk_apply (c : Dev nD) (t : Fin cfg1.N) (p kk : Fin 2048) :
    ablk V c t (ix2 p kk) = Aarr V c (ix2 (Cert.GcnSpec.colOf (tileOf t) p) (Cert.GcnSpec.colOf (stepOf t) kk)) := by
  have hi := idx1_0 t
  show (((cfg1.win 0).blk t).view.read (Elt Ideal) (V c (Pipeline.arrRef spec1 0))) (ix2 p kk) = _
  rw [View.read_apply]
  show V c main_arg1 _ = V c main_arg1 _
  congr 1
  funext a
  apply Fin.ext
  match a with
  | ⟨0, _⟩ => show win1_0.index t 0 * 2048 + 1 * p.val = 2048 * (t.val / 8) + p.val; rw [hi.1]; omega
  | ⟨1, _⟩ => show win1_0.index t 1 * 2048 + 1 * kk.val = 2048 * (t.val % 8) + kk.val; rw [hi.2]; omega

/-- Entry (kk, q) of the feature tile at point t is the features at row 2048·k + kk, column q. -/
theorem hblk_apply (c : Dev nD) (t : Fin cfg1.N) (kk : Fin 2048) (q : Fin 64) :
    hblk V c t (ix2 kk q) = Harr V c (ix2 (Cert.GcnSpec.colOf (stepOf t) kk) q) := by
  have hi := idx1_1 t
  show (((cfg1.win 1).blk t).view.read (Elt Ideal) (V c (Pipeline.arrRef spec1 1))) (ix2 kk q) = _
  rw [View.read_apply]
  show V c main_v2 _ = V c main_v2 _
  congr 1
  funext a
  apply Fin.ext
  match a with
  | ⟨0, _⟩ => show win1_1.index t 0 * 2048 + 1 * kk.val = 2048 * (t.val % 8) + kk.val; rw [hi.1]; omega
  | ⟨1, _⟩ => show win1_1.index t 1 * 64 + 1 * q.val = q.val; rw [hi.2]; omega

/-- The bias tile is the whole bias row. -/
theorem bblk_apply (c : Dev nD) (t : Fin cfg1.N) (q : Fin 64) :
    bblk V c t (ix2 (0 : Fin 1) q) = Barr V c (ix2 (0 : Fin 1) q) := by
  have hi := idx1_2 t
  show (((cfg1.win 2).blk t).view.read (Elt Ideal) (V c (Pipeline.arrRef spec1 2))) (ix2 (0 : Fin 1) q) = _
  rw [View.read_apply]
  show V c main_call1_v0 _ = V c main_call1_v0 _
  congr 1
  funext a
  apply Fin.ext
  match a with
  | ⟨0, _⟩ => show win1_2.index t 0 * 1 + 1 * 0 = 0; rw [hi.1]
  | ⟨1, _⟩ => show win1_2.index t 1 * 64 + 1 * q.val = q.val; rw [hi.2]; omega

end Blocks

/-! ## The accumulator after each point -/

section Invariant

open Cert.GcnSpec (colOf accAfter)

variable (V : (c : Dev nD) → (b : Ref sig .tc) → Buf (Elt Ideal) ((c : Thread nD τ).loc b))

/-- Block kb's share of entry (row, q) of the product: the sum over the 2048 columns of that block. -/
def blockTerm (c : Dev nD) (row : Fin 16384) (q : Fin 64) (kb : Fin 8) : EReal :=
  ∑ kk : Fin 2048, Aarr V c (ix2 row (colOf kb kk)) * Harr V c (ix2 (colOf kb kk) q)

/-- The same over the naturals (zero past the eighth block, which no point reaches). -/
abbrev blockSum (c : Dev nD) (row : Fin 16384) (q : Fin 64) : ℕ → EReal :=
  fun k => if hk : k < 8 then blockTerm V c row q ⟨k, hk⟩ else 0

/-- The tile product at point t, entry (p, q), is the share of block k of row 2048·i + p. -/
theorem step_sum (c : Dev nD) (t : Fin cfg1.N) (p : Fin 2048) (q : Fin 64) :
    ∑ kk : Fin 2048, ablk V c t (ix2 p kk) * hblk V c t (ix2 kk q) = blockSum V c (colOf (tileOf t) p) q (t.val % 8) := by
  show _ = if hk : t.val % 8 < 8 then blockTerm V c (colOf (tileOf t) p) q ⟨t.val % 8, hk⟩ else 0
  rw [dif_pos (Nat.mod_lt _ (by decide))]
  unfold blockTerm
  refine Finset.sum_congr rfl fun kk _ => ?_
  rw [ablk_apply, hblk_apply]
  rfl

/-- After a first step the accumulator holds zero plus the tile product; -/
theorem acc_A (c : Dev nD) (t : Fin cfg1.N) (h0 : t.val % 8 = 0) (h1 : ¬t.val % 8 = 7) (p : Fin 2048) (q : Fin 64) :
    ((outsAt1 (F := Ideal) V c t.val t.isLt).2 : S2048x64.Idx → EReal) (ix2 p q)
      = 0 + ∑ kk : Fin 2048, ablk V c t (ix2 p kk) * hblk V c t (ix2 kk q) := by
  rw [outsAt1_A V c t h0 h1]; dsimp only
  refine (congrFun (sout_A (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) (ix2 p q)).trans ?_
  refine (pay2_apply (ablk V c t) (hblk V c t) (k1_pay1 (F := Ideal)) p q).trans ?_
  rw [pay1_apply]

/-- after a middle step what the point before left plus the tile product; -/
theorem acc_B (c : Dev nD) (t : Fin cfg1.N) (h0 : ¬t.val % 8 = 0) (h1 : ¬t.val % 8 = 7) (p : Fin 2048) (q : Fin 64) :
    ((outsAt1 (F := Ideal) V c t.val t.isLt).2 : S2048x64.Idx → EReal) (ix2 p q)
      = ((outsAt1 (F := Ideal) V c (t.val - 1) (Nat.lt_of_le_of_lt (Nat.sub_le _ _) t.isLt)).2 : S2048x64.Idx → EReal) (ix2 p q) + ∑ kk : Fin 2048, ablk V c t (ix2 p kk) * hblk V c t (ix2 kk q) := by
  rw [outsAt1_B V c t h0 h1]; dsimp only
  refine (congrFun (sout_B (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 (F := Ideal) V c (t.val - 1) (Nat.lt_of_le_of_lt (Nat.sub_le _ _) t.isLt)).2) (ix2 p q)).trans ?_
  exact pay2_apply (ablk V c t) (hblk V c t) (outsAt1 (F := Ideal) V c (t.val - 1) (Nat.lt_of_le_of_lt (Nat.sub_le _ _) t.isLt)).2 p q

/-- and after a last step the same, -/
theorem acc_C (c : Dev nD) (t : Fin cfg1.N) (h0 : ¬t.val % 8 = 0) (h1 : t.val % 8 = 7) (p : Fin 2048) (q : Fin 64) :
    ((outsAt1 (F := Ideal) V c t.val t.isLt).2 : S2048x64.Idx → EReal) (ix2 p q)
      = ((outsAt1 (F := Ideal) V c (t.val - 1) (Nat.lt_of_le_of_lt (Nat.sub_le _ _) t.isLt)).2 : S2048x64.Idx → EReal) (ix2 p q) + ∑ kk : Fin 2048, ablk V c t (ix2 p kk) * hblk V c t (ix2 kk q) := by
  rw [outsAt1_C V c t h0 h1]; dsimp only
  refine (congrFun (sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 (F := Ideal) V c (t.val - 1) (Nat.lt_of_le_of_lt (Nat.sub_le _ _) t.isLt)).2) (ix2 p q)).trans ?_
  exact pay2_apply (ablk V c t) (hblk V c t) (outsAt1 (F := Ideal) V c (t.val - 1) (Nat.lt_of_le_of_lt (Nat.sub_le _ _) t.isLt)).2 p q

/-- while the output tile takes the accumulator plus the bias, clamped below at zero. -/
theorem tile_C (c : Dev nD) (t : Fin cfg1.N) (h0 : ¬t.val % 8 = 0) (h1 : t.val % 8 = 7) (p : Fin 2048) (q : Fin 64) :
    ((outsAt1 (F := Ideal) V c t.val t.isLt).1 : S2048x64.Idx → EReal) (ix2 p q)
      = max (((outsAt1 (F := Ideal) V c t.val t.isLt).2 : S2048x64.Idx → EReal) (ix2 p q) + Barr V c (ix2 (0 : Fin 1) q)) 0 := by
  rw [outsAt1_C V c t h0 h1]; dsimp only
  rw [out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 (F := Ideal) V c (t.val - 1) (Nat.lt_of_le_of_lt (Nat.sub_le _ _) t.isLt)).2,
    sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 (F := Ideal) V c (t.val - 1) (Nat.lt_of_le_of_lt (Nat.sub_le _ _) t.isLt)).2]
  refine (pay3_apply (k1_pay2 (F := Ideal) (iblk1 V c 0 t) (iblk1 V c 1 t) (outsAt1 (F := Ideal) V c (t.val - 1) (Nat.lt_of_le_of_lt (Nat.sub_le _ _) t.isLt)).2) (bblk V c t) p q).trans ?_
  rw [bblk_apply]

theorem outs_congr (c : Dev nD) (a b : ℕ) (ha : a < cfg1.N) (hb : b < cfg1.N) (e : a = b) :
    outsAt1 (F := Ideal) V c a ha = outsAt1 (F := Ideal) V c b hb := by subst e; rfl

/-- After point n = 8·i + k the accumulator's entry (p, q) holds the first k + 1 block shares of row 2048·i + p,
    the first added to zero, in the order of the steps. -/
theorem acc_eq (c : Dev nD) : ∀ (n : ℕ) (hn : n < cfg1.N) (p : Fin 2048) (q : Fin 64),
    ((outsAt1 (F := Ideal) V c n hn).2 : S2048x64.Idx → EReal) (ix2 p q)
      = accAfter (blockSum V c (colOf (tileOf ⟨n, hn⟩) p) q) (n % 8)
  | 0, hn, p, q => by
    refine (acc_A V c ⟨0, hn⟩ rfl (by show ¬(0 % 8 = 7); decide) p q).trans ?_
    rw [step_sum]
    rfl
  | n + 1, hn, p, q => by
    by_cases h0 : (n + 1) % 8 = 0
    · have h1 : ¬(n + 1) % 8 = 7 := by omega
      refine (acc_A V c ⟨n + 1, hn⟩ h0 h1 p q).trans ?_
      rw [step_sum]
      show 0 + blockSum V c _ q ((n + 1) % 8) = accAfter _ ((n + 1) % 8)
      rw [h0]
      rfl
    · have hn' : n < cfg1.N := Nat.lt_of_succ_lt hn
      have ih := acc_eq c n hn' p q
      have htile : tileOf ⟨n, hn'⟩ = tileOf ⟨n + 1, hn⟩ := Fin.ext (by show n / 8 = (n + 1) / 8; omega)
      have hstep : (n + 1) % 8 = n % 8 + 1 := by omega
      have hprev : ((outsAt1 (F := Ideal) V c ((⟨n + 1, hn⟩ : Fin cfg1.N).val - 1) (Nat.lt_of_le_of_lt (Nat.sub_le _ _) (⟨n + 1, hn⟩ : Fin cfg1.N).isLt)).2 : S2048x64.Idx → EReal) (ix2 p q)
          = accAfter (blockSum V c (colOf (tileOf ⟨n + 1, hn⟩) p) q) (n % 8) := by
        rw [outs_congr V c _ n _ hn' (Nat.add_sub_cancel n 1), ih, htile]
      have hsum := step_sum V c ⟨n + 1, hn⟩ p q
      by_cases h1 : (n + 1) % 8 = 7
      · refine (acc_C V c ⟨n + 1, hn⟩ h0 h1 p q).trans ?_
        rw [hprev, hsum]
        show _ + blockSum V c _ q ((n + 1) % 8) = accAfter _ ((n + 1) % 8)
        rw [hstep]
        rfl
      · refine (acc_B V c ⟨n + 1, hn⟩ h0 h1 p q).trans ?_
        rw [hprev, hsum]
        show _ + blockSum V c _ q ((n + 1) % 8) = accAfter _ ((n + 1) % 8)
        rw [hstep]
        rfl

end Invariant

/-! ## The output array after the region -/

section Final

open Cert.GcnSpec (colOf accAfter layerAt)

variable (V : (c : Dev nD) → (b : Ref sig .tc) → Buf (Elt Ideal) ((c : Thread nD τ).loc b))

/-- The layer's value, as contents of the output array. -/
def layerArr (c : Dev nD) : S16384x64.Idx → EReal := fun i =>
  layerAt (fun r k => Aarr V c (ix2 r k)) (fun k j => Harr V c (ix2 k j)) (fun j => Barr V c (ix2 (0 : Fin 1) j))
    ⟨(i 0).val, (i 0).isLt⟩ ⟨(i 1).val, (i 1).isLt⟩

theorem layerArr_of (c : Dev nD) (i : S16384x64.Idx) (r : Fin 16384) (j : Fin 64) (h0 : (i 0).val = r.val) (h1 : (i 1).val = j.val) :
    layerArr V c i = layerAt (fun r k => Aarr V c (ix2 r k)) (fun k j => Harr V c (ix2 k j)) (fun j => Barr V c (ix2 (0 : Fin 1) j)) r j := by
  have e0 : (⟨(i 0).val, (i 0).isLt⟩ : Fin 16384) = r := Fin.ext h0
  have e1 : (⟨(i 1).val, (i 1).isLt⟩ : Fin 64) = j := Fin.ext h1
  unfold layerArr
  rw [e0, e1]

/-- At a last step the output tile's entry (p, q) is the layer at row 2048·i + p: the eight block shares are the
    whole sum over the 16384 columns. -/
theorem tile_value (c : Dev nD) (t : Fin cfg1.N) (h7 : t.val % 8 = 7) (p : Fin 2048) (q : Fin 64) :
    ((outsAt1 (F := Ideal) V c t.val t.isLt).1 : S2048x64.Idx → EReal) (ix2 p q)
      = layerAt (fun r k => Aarr V c (ix2 r k)) (fun k j => Harr V c (ix2 k j)) (fun j => Barr V c (ix2 (0 : Fin 1) j)) (colOf (tileOf t) p) q := by
  rw [tile_C V c t (by omega) h7 p q, acc_eq V c t.val t.isLt p q, h7]
  show max (accAfter (fun k => if hk : k < 8 then blockTerm V c (colOf (tileOf t) p) q ⟨k, hk⟩ else 0) 7 + _) 0 = _
  rw [Cert.GcnSpec.accAfter_seven (blockTerm V c (colOf (tileOf t) p) q)]
  unfold layerAt
  rw [Cert.GcnSpec.sum_blocks (fun k => Aarr V c (ix2 (colOf (tileOf t) p) k) * Harr V c (ix2 k q))]
  rfl

/-- What a last step writes back is its block of the layer's value. -/
theorem flushed_eq (c : Dev nD) (t : Fin cfg1.N) (hf : (cfg1.win 3).flush t = true) :
    (dat1 (F := Ideal) V c).flushed 3 t = ((cfg1.win 3).blk t).view.read (Elt Ideal) (layerArr V c) := by
  have h7 : t.val % 8 = 7 := (flush1_3 t).mp hf
  have hi := idx1_3 t
  funext y
  obtain ⟨p, q, rfl⟩ : ∃ (p : Fin 2048) (q : Fin 64), y = ix2 p q := ⟨_, _, eq_ix2 (n0 := 2048) (n1 := 64) y⟩
  show (cfg1.win 3).cut (cfg1.grid.coords t) ((dat1 (F := Ideal) V c).after 3 t) (ix2 p q) = _
  rw [after1_3 V c t, View.read_apply]
  show ((outsAt1 (F := Ideal) V c t.val t.isLt).1 : S2048x64.Idx → EReal) (ix2 p q) = layerArr V c _
  rw [tile_value V c t h7 p q]
  symm
  refine layerArr_of V c _ (colOf (tileOf t) p) q ?_ ?_
  · show win1_3.index t 0 * 2048 + 1 * p.val = 2048 * (t.val / 8) + p.val
    rw [hi.1]; omega
  · show win1_3.index t 1 * 64 + 1 * q.val = q.val
    rw [hi.2]; omega

theorem xsz1_3 : ∀ t : Fin cfg1.N, win1_3.xsize (grid1.coords t) 0 = 2048 ∧ win1_3.xsize (grid1.coords t) 1 = 64 :=
  (by decide +kernel : ∀ t : Fin grid1.N, win1_3.xsize (grid1.coords t) 0 = 2048 ∧ win1_3.xsize (grid1.coords t) 1 = 64)

/-- Row r of the output lies in the tile that the last step of row tile r / 2048 writes back. -/
theorem cover3 (i : S16384x64.Idx) : ∃ t : Fin cfg1.N, (cfg1.win 3).flush t = true ∧ i ∈ ((cfg1.win 3).blk t).view.set := by
  have h0 : (i 0).val < 16384 := idx2_lt0 i
  have h1 : (i 1).val < 64 := idx2_lt1 i
  have hN : cfg1.N = 64 := N_1
  obtain ⟨t, ht⟩ : ∃ t : Fin cfg1.N, t.val = 8 * ((i 0).val / 2048) + 7 := ⟨⟨8 * ((i 0).val / 2048) + 7, by omega⟩, rfl⟩
  refine ⟨t, (flush1_3 t).mpr (by omega), ?_⟩
  show i ∈ ((View.whole main_v3).slice (win1_3.rect t)).set
  rw [View.set_slice_whole, Rect.mem_set_unit]
  intro a
  match a with
  | ⟨0, _⟩ =>
    show win1_3.index t 0 * win1_3.size 0 ≤ (i 0 : Nat) ∧ (i 0 : Nat) < win1_3.index t 0 * win1_3.size 0 + win1_3.xsize (grid1.coords t) 0
    rw [(idx1_3 t).1, (xsz1_3 t).1, show win1_3.size 0 = 2048 from rfl]; omega
  | ⟨1, _⟩ =>
    show win1_3.index t 1 * win1_3.size 1 ≤ (i 1 : Nat) ∧ (i 1 : Nat) < win1_3.index t 1 * win1_3.size 1 + win1_3.xsize (grid1.coords t) 1
    rw [(idx1_3 t).2, (xsz1_3 t).2, show win1_3.size 1 = 64 from rfl]; omega

/-- So the output array ends holding the layer's value. -/
theorem arr_final (c : Dev nD) : (dat1 (F := Ideal) V c).arrAt 3 cfg1.N = layerArr V c :=
  (dat1 (F := Ideal) V c).arrAt_eq_of_cover 3 (layerArr V c) (flushed_eq V c) cover3

end Final

/-- What region 1 leaves in its output array, entry by entry: the graph-convolution layer of the adjacency,
    the features and the bias row the region was entered with. -/
theorem layer1_value (V : (c : Dev nD) → (b : Ref sig .tc) → Buf (Elt Ideal) ((c : Thread nD τ).loc b)) (c : Dev nD) (r : Fin 16384) (j : Fin 64) :
    ((dat1 (F := Ideal) V c).arrAt 3 cfg1.N : S16384x64.Idx → EReal) (ix2 r j)
      = Cert.GcnSpec.layerAt (fun r k => (V c main_arg1 : S16384x16384.Idx → EReal) (ix2 r k))
          (fun k j => (V c main_v2 : S16384x64.Idx → EReal) (ix2 k j))
          (fun j => (V c main_call1_v0 : S1x64.Idx → EReal) (ix2 0 j)) r j := by
  refine (congrFun (arr_final V c) (ix2 r j)).trans ?_
  rfl

end Cert.KernelIdeal.Layer.Region1

end
-- ==== Proof.KI.HostVals.lean ====
/-
  What the host stretches leave where the next item reads it: the features x·W1 and the bias row before the first
  layer's region; the features (first layer's output)·W2 and the bias row before the second; and the result buffer
  after the dense head, as the head's operations applied to the second layer's output. The adjacency is an argument
  and is never written.
-/
import proofs.«119303_j10565619548474_1_alg».proof.Proof.KI.Run
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch contents kept up to each boundary where an operand is read. -/
theorem W1_arg (c : Dev nD) (r : Ref sig .tc) (h : r ∉ hostOps0_W) : W1 m ρ c (Proc.devRef .tc r) = m ((c : Thread nD τ).loc r) :=
  (W1_of m ρ c r h).trans rfl

theorem W2_feat (c : Dev nD) : W2 m ρ c (Proc.devRef .tc main_v0)
    = Host.dotGeneral dot_S16384x32_S32x64_S16384x64_1_0_0_1_n_n none (m ((c : Thread nD τ).loc main_arg0)) (m ((c : Thread nD τ).loc main_arg2)) := by
  refine (W2_of m ρ c main_v0 (by decide)).trans ?_
  show StableHlo.after hostOps0 _ (Proc.devRef .tc main_v0) = _
  after_results

theorem W2_bias (c : Dev nD) : W2 m ρ c (Proc.devRef .tc main_call0_v0)
    = shapeCast S1x64 (m ((c : Thread nD τ).loc main_arg3)) shapeCasts_S64_S1x64 := by
  show StableHlo.after hostOps0_1 _ (Proc.devRef .tc main_call0_v0) = _
  after_results
  exact congrArg (fun x => shapeCast S1x64 x shapeCasts_S64_S1x64) (W1_arg m ρ c main_arg3 (by decide))

theorem W2_adj (c : Dev nD) : W2 m ρ c (Proc.devRef .tc main_arg1) = (m ((c : Thread nD τ).loc main_arg1)) :=
  (W2_of m ρ c main_arg1 (by decide)).trans (W1_arg m ρ c main_arg1 (by decide))

/-- An argument the first region does not stage is kept through it and the stretches before it. -/
theorem W3_arg (c : Dev nD) (r : Ref sig .tc) (h0 : r ∉ hostOps0_W) (h1 : r ∉ hostOps0_1_W) (h3 : ∀ w, Pipeline.arrRef spec0 w ≠ r) :
    W3 m ρ c (Proc.devRef .tc r) = m ((c : Thread nD τ).loc r) :=
  (W3_of_ne m ρ c r h3).trans ((W2_of m ρ c r h1).trans (W1_arg m ρ c r h0))

theorem W5_feat (c : Dev nD) : W5 m ρ c (Proc.devRef .tc main_v2)
    = Host.dotGeneral dot_S16384x64_S64x64_S16384x64_1_0_0_1_n_n none (W3 m ρ c (Proc.devRef .tc main_v1)) (m ((c : Thread nD τ).loc main_arg4)) := by
  refine (W5_of m ρ c main_v2 (by decide)).trans ?_
  show StableHlo.after hostOps1 _ (Proc.devRef .tc main_v2) = _
  after_results
  exact congrArg (fun x => Host.dotGeneral dot_S16384x64_S64x64_S16384x64_1_0_0_1_n_n none (W3 m ρ c (Proc.devRef .tc main_v1)) x)
    (W3_arg m ρ c main_arg4 (by decide) (by decide) (by decide))

theorem W5_bias (c : Dev nD) : W5 m ρ c (Proc.devRef .tc main_call1_v0)
    = shapeCast S1x64 (m ((c : Thread nD τ).loc main_arg5)) shapeCasts_S64_S1x64 := by
  show StableHlo.after hostOps1_1 _ (Proc.devRef .tc main_call1_v0) = _
  after_results
  exact congrArg (fun x => shapeCast S1x64 x shapeCasts_S64_S1x64)
    ((W4_of m ρ c main_arg5 (by decide)).trans (W3_arg m ρ c main_arg5 (by decide) (by decide) (by decide)))

theorem W5_adj (c : Dev nD) : W5 m ρ c (Proc.devRef .tc main_arg1) = (m ((c : Thread nD τ).loc main_arg1)) :=
  (W5_of m ρ c main_arg1 (by decide)).trans ((W4_of m ρ c main_arg1 (by decide)).trans ((W3_in m ρ c 0 rfl).trans (W2_adj m ρ c)))

/-- An argument the second region does not stage is kept up to its exit. -/
theorem W6_arg (c : Dev nD) (r : Ref sig .tc) (h0 : r ∉ hostOps0_W) (h1 : r ∉ hostOps0_1_W) (h3 : ∀ w, Pipeline.arrRef spec0 w ≠ r)
    (h4 : r ∉ hostOps1_W) (h5 : r ∉ hostOps1_1_W) (h6 : ∀ w, Pipeline.arrRef spec1 w ≠ r) :
    W6 m ρ c (Proc.devRef .tc r) = m ((c : Thread nD τ).loc r) :=
  (W6_of_ne m ρ c r h6).trans ((W5_of m ρ c r h5).trans ((W4_of m ρ c r h4).trans (W3_arg m ρ c r h0 h1 h3)))

/-- The dense head's operations, as one function of the second layer's output and the head's four parameters. -/
def headTerm (g : FVec F S16384x64 .f32) (wd1 : FVec F S64x32 .f32) (bd1 : FVec F S32 .f32) (wd2 : FVec F S32x1 .f32) (bd2 : FVec F S1 .f32) :
    FVec F S16384x1 .f32 :=
  addf (Host.dotGeneral dot_S16384x32_S32x1_S16384x1_1_0_0_1_n_n none
      (maximumf (addf (Host.dotGeneral dot_S16384x64_S64x32_S16384x32_1_0_0_1_n_n none g wd1)
          (broadcastInDim S16384x32 ![0, 1] bcast_S1x32_S16384x32_0_1 (broadcastInDim S1x32 ![1] bcast_S32_S1x32_1 bd1)))
        (broadcastInDim S16384x32 ![] bcast_S_S16384x32 (constant S_ .f32 0x00000000#32))) wd2)
    (broadcastInDim S16384x1 ![0, 1] bcast_S1x1_S16384x1_0_1 (broadcastInDim S1x1 ![1] bcast_S1_S1x1_1 bd2))

theorem W9_out (c : Dev nD) : W9 m ρ c (Proc.devRef .tc main_v12)
    = headTerm (W6 m ρ c (Proc.devRef .tc main_v3)) (m ((c : Thread nD τ).loc main_arg6)) (m ((c : Thread nD τ).loc main_arg7)) (m ((c : Thread nD τ).loc main_arg8)) (m ((c : Thread nD τ).loc main_arg9)) := by
  have e6 := W6_arg m ρ c main_arg6 (by decide) (by decide) (by decide) (by decide) (by decide) (by decide)
  have e7 := W6_arg m ρ c main_arg7 (by decide) (by decide) (by decide) (by decide) (by decide) (by decide)
  have e8 := W6_arg m ρ c main_arg8 (by decide) (by decide) (by decide) (by decide) (by decide) (by decide)
  have e9 := W6_arg m ρ c main_arg9 (by decide) (by decide) (by decide) (by decide) (by decide) (by decide)
  rw [← e6, ← e7, ← e8, ← e9]
  show StableHlo.after hostOps2_2 (StableHlo.after hostOps2_1 (StableHlo.after hostOps2 (W6 m ρ c))) (Proc.devRef .tc main_v12) = _
  generalize W6 m ρ c = X
  unfold headTerm
  after_results
  rfl

end Cert.KernelIdeal.Layer

end
-- ==== Proof.KI.ValueStmt.lean ====
/-
  What each layer's region leaves in its output array, entry by entry, as two named statements: the region's
  result at (r, j) is the layer function of the adjacency, the features and the bias row the region was entered with.
-/
import proofs.«119303_j10565619548474_1_alg».proof.Proof.KI.R0Body
import proofs.«119303_j10565619548474_1_alg».proof.Proof.KI.R1Body
import proofs.«119303_j10565619548474_1_alg».proof.Proof.Spec
import Idealize.ShloMosaic.Lib.ValueIdx

noncomputable section

namespace Cert.KernelIdeal.Layer

open Cert.KernelIdeal Cert.KernelIdeal.Gen Idealize.ShloMosaic Idealize.ShloMosaic.TcCoe

/-- The first layer's region. -/
def Layer0Stmt : Prop :=
  ∀ (V : (c : Dev nD) → (b : Ref sig .tc) → Buf (Elt Ideal) ((c : Thread nD τ).loc b)) (c : Dev nD) (r : Fin 16384) (j : Fin 64),
    ((dat0 (F := Ideal) V c).arrAt 3 cfg0.N : S16384x64.Idx → EReal) (ValueIdx.ix2 r j)
      = Cert.GcnSpec.layerAt (fun r k => (V c main_arg1 : S16384x16384.Idx → EReal) (ValueIdx.ix2 r k))
          (fun k j => (V c main_v0 : S16384x64.Idx → EReal) (ValueIdx.ix2 k j))
          (fun j => (V c main_call0_v0 : S1x64.Idx → EReal) (ValueIdx.ix2 0 j)) r j

/-- The second layer's region. -/
def Layer1Stmt : Prop :=
  ∀ (V : (c : Dev nD) → (b : Ref sig .tc) → Buf (Elt Ideal) ((c : Thread nD τ).loc b)) (c : Dev nD) (r : Fin 16384) (j : Fin 64),
    ((dat1 (F := Ideal) V c).arrAt 3 cfg1.N : S16384x64.Idx → EReal) (ValueIdx.ix2 r j)
      = Cert.GcnSpec.layerAt (fun r k => (V c main_arg1 : S16384x16384.Idx → EReal) (ValueIdx.ix2 r k))
          (fun k j => (V c main_v2 : S16384x64.Idx → EReal) (ValueIdx.ix2 k j))
          (fun j => (V c main_call1_v0 : S1x64.Idx → EReal) (ValueIdx.ix2 0 j)) r j

end Cert.KernelIdeal.Layer

end
-- ==== Proof.RefLayer.lean ====
/-
  One layer of the reference, read at an output entry.

  The reference computes a layer as  relu(dot_general(a, h) + broadcast(b)) : the product contracts the second axis of
  the 16384 × 16384 matrix a with the first axis of the 16384 × 64 matrix h, the 64 biases are broadcast first to one
  row and then down the 16384 rows, and relu is the maximum with a zero scalar broadcast to every entry. Over the
  extended reals each of these reads entrywise: the product at (r, j) is Σ_k a[r, k] · h[k, j], the broadcast bias at
  (r, j) is b[j], the broadcast zero is 0. Hence the layer at (r, j) is max((Σ_k a[r, k] · h[k, j]) + b[j], 0).

  A second, independent fact: a vector of 64 entries regarded as a 1 × 64 matrix has entry (0, j) equal to entry j.
-/
import proofs.«119303_j10565619548474_1_alg».proof.Proof.Gen.ReferenceIdeal.Read
import proofs.«119303_j10565619548474_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefLayer

open Cert.ReferenceIdeal Cert.ReferenceIdeal.Gen Idealize.ShloMosaic Idealize.ShloMosaic.ValueIdx

/-- The reference's host operations of one layer: relu(dot_general(a, h) + broadcast(b)). -/
noncomputable def layerTerm (a : FVec Ideal S16384x16384 .f32) (h : FVec Ideal S16384x64 .f32) (b : FVec Ideal S64 .f32) : FVec Ideal S16384x64 .f32 :=
  maximumf (addf (Host.dotGeneral (F := Ideal) dot_S16384x16384_S16384x64_S16384x64_1_0_0_1_n_n none a h)
      (broadcastInDim S16384x64 ![0, 1] bcast_S1x64_S16384x64_0_1 (broadcastInDim S1x64 ![1] bcast_S64_S1x64_1 b)))
    (broadcastInDim S16384x64 ![] bcast_S_S16384x64 (constant (F := Ideal) S_ .f32 0x00000000#32))

/-- The product at entry (r, j) is the sum over the 16384 contracted positions k of a[r, k] · h[k, j]: the contracted
    index set has one axis of extent 16384, and the operand entries the product pairs at k are (r, k) and (k, j). -/
theorem dot_apply (a : FVec Ideal S16384x16384 .f32) (h : FVec Ideal S16384x64 .f32) (r : Fin 16384) (j : Fin 64) :
    Host.dotGeneral (F := Ideal) dot_S16384x16384_S16384x64_S16384x64_1_0_0_1_n_n none a h (ix2 r j)
      = ∑ k : Fin 16384, a (ix2 r k) * h (ix2 k j) := by
  simp only [Host.dotGeneral]
  rw [Ideal.dotGeneral_apply, ← Equiv.sum_comp (contrEquiv1 dot_S16384x16384_S16384x64_S16384x64_1_0_0_1_n_n 16384 rfl rfl).symm]
  refine Finset.sum_congr rfl fun k _ => ?_
  have hk := contrEquiv1_symm_val dot_S16384x16384_S16384x64_S16384x64_1_0_0_1_n_n 16384 rfl rfl k
  have el : dot_S16384x16384_S16384x64_S16384x64_1_0_0_1_n_n.lhsIdx (ix2 r j) ((contrEquiv1 dot_S16384x16384_S16384x64_S16384x64_1_0_0_1_n_n 16384 rfl rfl).symm k) = ix2 r k :=
    funext fun x => Fin.ext (by
      match x with
      | ⟨0, _⟩ => exact Read.lhs_main_v1_0 _ _
      | ⟨1, _⟩ => exact (Read.lhs_main_v1_1 _ _).trans hk)
  have er : dot_S16384x16384_S16384x64_S16384x64_1_0_0_1_n_n.rhsIdx (ix2 r j) ((contrEquiv1 dot_S16384x16384_S16384x64_S16384x64_1_0_0_1_n_n 16384 rfl rfl).symm k) = ix2 k j :=
    funext fun x => Fin.ext (by
      match x with
      | ⟨0, _⟩ => exact (Read.rhs_main_v1_0 _ _).trans hk
      | ⟨1, _⟩ => exact Read.rhs_main_v1_1 _ _)
  rw [el, er]

/-- The bias broadcast to one row and then down the rows reads b[j] at entry (r, j). -/
theorem bias_apply (b : FVec Ideal S64 .f32) (r : Fin 16384) (j : Fin 64) :
    broadcastInDim S16384x64 ![0, 1] bcast_S1x64_S16384x64_0_1 (broadcastInDim S1x64 ![1] bcast_S64_S1x64_1 b) (ix2 r j)
      = b (ix1 j) :=
  (broadcastInDim_apply _ bcast_S1x64_S16384x64_0_1 (broadcastInDim S1x64 ![1] bcast_S64_S1x64_1 b) (ix2 r j)
      (ix2 (0 : Fin 1) j) (fun x => match x with
        | ⟨0, _⟩ => by show 0 = if (1 : Nat) = 1 then 0 else r.val; rw [if_pos rfl]
        | ⟨1, _⟩ => by show j.val = if (64 : Nat) = 1 then 0 else j.val; rw [if_neg (by decide)])).trans
    (broadcastInDim_apply _ bcast_S64_S1x64_1 b (ix2 (0 : Fin 1) j) (ix1 j) (fun x => match x with
        | ⟨0, _⟩ => by show j.val = if (64 : Nat) = 1 then 0 else j.val; rw [if_neg (by decide)]))

/-- The zero scalar broadcast to every entry reads the extended real 0. -/
theorem zero_apply (r : Fin 16384) (j : Fin 64) :
    broadcastInDim S16384x64 ![] bcast_S_S16384x64 (constant (F := Ideal) S_ .f32 0x00000000#32) (ix2 r j) = (0 : EReal) :=
  (broadcastInDim_apply _ bcast_S_S16384x64 (constant (F := Ideal) S_ .f32 0x00000000#32) (ix2 r j)
      (fun x => x.elim0) (fun x => x.elim0)).trans Ideal.ofBits_zero_f32

/-- The layer of the reference at entry (r, j) is max((Σ_k a[r, k] · h[k, j]) + b[j], 0). -/
theorem layerTerm_apply (a : FVec Ideal S16384x16384 .f32) (h : FVec Ideal S16384x64 .f32) (b : FVec Ideal S64 .f32) (r : Fin 16384) (j : Fin 64) :
    layerTerm a h b (ValueIdx.ix2 r j)
      = Cert.GcnSpec.layerAt (fun r k => a (ValueIdx.ix2 r k)) (fun k j => h (ValueIdx.ix2 k j)) (fun j => b (ValueIdx.ix1 j)) r j := by
  unfold layerTerm Cert.GcnSpec.layerAt
  rw [maximumf_apply, addf_apply, dot_apply, bias_apply, zero_apply]

/-- A vector of 64 entries regarded as a 1 × 64 matrix: entry (0, j) of the matrix is entry j of the vector. -/
theorem bias_row_apply (x : (⟨1, ![64]⟩ : Shape).Idx → EReal) (h : (⟨1, ![64]⟩ : Shape).ShapeCasts ⟨2, ![1, 64]⟩) (j : Fin 64) :
    (shapeCast ⟨2, ![1, 64]⟩ x h) (ix2 0 j) = x (ix1 j) :=
  shapeCast_a_1a_apply x h 0 j

end Cert.ReferenceIdeal.RefLayer

end
-- ==== Proof.Bridge.lean ====
/-
  The kernel program's result buffer holds the reference's term.

  The reference computes  head(layer(a, layer(a, x·W1, b1)·W2, b2))  where layer is relu(a·h + b) and head is the
  dense tail (product, bias, relu, product, bias). The kernel program computes the same chain with each layer done
  by a tiled region: the region's output array, entry by entry, is max((Σ_k a[r, k] · h[k, j]) + b[j], 0) of the
  arrays it was entered with, which is the reference's layer read at (r, j). So the two layer outputs agree as
  arrays, and the shared head applied to equal arrays gives equal results.
-/
import proofs.«119303_j10565619548474_1_alg».proof.Proof.KI.HostVals
import proofs.«119303_j10565619548474_1_alg».proof.Proof.KI.ValueStmt
import proofs.«119303_j10565619548474_1_alg».proof.Proof.RefLayer

set_option maxRecDepth 16384

noncomputable section

namespace Cert.Bridge

open Idealize.ShloMosaic Idealize.ShloMosaic.TcCoe Idealize.ShloMosaic.ValueIdx

open Cert.ReferenceIdeal Cert.ReferenceIdeal.Gen Cert.ReferenceIdeal.RefLayer in
/-- The reference's result as a function of the ten arguments: the dense head applied to the second layer of the first
    layer, each layer the reference's relu(a·h + b). -/
noncomputable def refOut (x : FVec Ideal Cert.ReferenceIdeal.S16384x32 .f32) (a : FVec Ideal Cert.ReferenceIdeal.S16384x16384 .f32) (W1 : FVec Ideal Cert.ReferenceIdeal.S32x64 .f32) (b1 : FVec Ideal Cert.ReferenceIdeal.S64 .f32) (W2 : FVec Ideal Cert.ReferenceIdeal.S64x64 .f32) (b2 : FVec Ideal Cert.ReferenceIdeal.S64 .f32) (Wd1 : FVec Ideal Cert.ReferenceIdeal.S64x32 .f32) (bd1 : FVec Ideal Cert.ReferenceIdeal.S32 .f32) (Wd2 : FVec Ideal Cert.ReferenceIdeal.S32x1 .f32) (bd2 : FVec Ideal Cert.ReferenceIdeal.S1 .f32) : FVec Ideal Cert.ReferenceIdeal.S16384x1 .f32 :=
  addf (Host.dotGeneral (F := Ideal) dot_S16384x32_S32x1_S16384x1_1_0_0_1_n_n none (maximumf (addf (Host.dotGeneral (F := Ideal) dot_S16384x64_S64x32_S16384x32_1_0_0_1_n_n none (layerTerm a (Host.dotGeneral (F := Ideal) dot_S16384x64_S64x64_S16384x64_1_0_0_1_n_n none (layerTerm a (Host.dotGeneral (F := Ideal) dot_S16384x32_S32x64_S16384x64_1_0_0_1_n_n none x W1) b1) W2) b2) Wd1) (broadcastInDim S16384x32 ![0, 1] bcast_S1x32_S16384x32_0_1 (broadcastInDim S1x32 ![1] bcast_S32_S1x32_1 bd1))) (broadcastInDim S16384x32 ![] bcast_S_S16384x32 (constant (F := Ideal) S_ .f32 0x00000000#32))) Wd2) (broadcastInDim S16384x1 ![0, 1] bcast_S1x1_S16384x1_0_1 (broadcastInDim S1x1 ![1] bcast_S1_S1x1_1 bd2))

open Cert.ReferenceIdeal Cert.ReferenceIdeal.Gen Cert.ReferenceIdeal.RefLayer in
/-- The reference run's result term is refOut of the arguments' launch contents: the two layers are the layer term by
    definition. -/
theorem ref_term_eq (m' : (ℓ : Loc Cert.ReferenceIdeal.nD Cert.ReferenceIdeal.τ Cert.ReferenceIdeal.sig) → Buf (Elt Ideal) ℓ) (c : Dev Cert.ReferenceIdeal.nD) :
    addf (Host.dotGeneral (F := Ideal) (φ₁ := .f32) (φ₂ := .f32) dot_S16384x32_S32x1_S16384x1_1_0_0_1_n_n none (maximumf (addf (Host.dotGeneral (F := Ideal) (φ₁ := .f32) (φ₂ := .f32) dot_S16384x64_S64x32_S16384x32_1_0_0_1_n_n none (maximumf (addf (Host.dotGeneral (F := Ideal) (φ₁ := .f32) (φ₂ := .f32) dot_S16384x16384_S16384x64_S16384x64_1_0_0_1_n_n none (m' ((c.tc : Thread nD τ).loc main_arg1)) (Host.dotGeneral (F := Ideal) (φ₁ := .f32) (φ₂ := .f32) dot_S16384x64_S64x64_S16384x64_1_0_0_1_n_n none (maximumf (addf (Host.dotGeneral (F := Ideal) (φ₁ := .f32) (φ₂ := .f32) dot_S16384x16384_S16384x64_S16384x64_1_0_0_1_n_n none (m' ((c.tc : Thread nD τ).loc main_arg1)) (Host.dotGeneral (F := Ideal) (φ₁ := .f32) (φ₂ := .f32) dot_S16384x32_S32x64_S16384x64_1_0_0_1_n_n none (m' ((c.tc : Thread nD τ).loc main_arg0)) (m' ((c.tc : Thread nD τ).loc main_arg2)))) (broadcastInDim S16384x64 ![0, 1] bcast_S1x64_S16384x64_0_1 (broadcastInDim S1x64 ![1] bcast_S64_S1x64_1 (m' ((c.tc : Thread nD τ).loc main_arg3))))) (broadcastInDim S16384x64 ![] bcast_S_S16384x64 (constant (F := Ideal) S_ .f32 0x00000000#32))) (m' ((c.tc : Thread nD τ).loc main_arg4)))) (broadcastInDim S16384x64 ![0, 1] bcast_S1x64_S16384x64_0_1 (broadcastInDim S1x64 ![1] bcast_S64_S1x64_1 (m' ((c.tc : Thread nD τ).loc main_arg5))))) (broadcastInDim S16384x64 ![] bcast_S_S16384x64 (constant (F := Ideal) S_ .f32 0x00000000#32))) (m' ((c.tc : Thread nD τ).loc main_arg6))) (broadcastInDim S16384x32 ![0, 1] bcast_S1x32_S16384x32_0_1 (broadcastInDim S1x32 ![1] bcast_S32_S1x32_1 (m' ((c.tc : Thread nD τ).loc main_arg7))))) (broadcastInDim S16384x32 ![] bcast_S_S16384x32 (constant (F := Ideal) S_ .f32 0x00000000#32))) (m' ((c.tc : Thread nD τ).loc main_arg8))) (broadcastInDim S16384x1 ![0, 1] bcast_S1x1_S16384x1_0_1 (broadcastInDim S1x1 ![1] bcast_S1_S1x1_1 (m' ((c.tc : Thread nD τ).loc main_arg9))))
      = refOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) := by
  unfold refOut layerTerm
  with_reducible rfl

open Cert.ReferenceIdeal Cert.ReferenceIdeal.Gen Idealize.SL.Sem in
/-- The reference program's run with its result folded: every weakly fair execution of the reference terminates with its
    result buffer at refOut of the arguments' launch contents. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r => ∀ c : Dev Cert.ReferenceIdeal.nD,
      r.2.mem ((c.tc : Thread nD τ).loc main_v20) = refOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) :=
  (θ_run Cert.ReferenceIdeal.defs _ _).mono (fun r h c => (h c).1.trans (ref_term_eq m' c)) (Cert.ReferenceIdeal.Value.run (F := Ideal) m' ρ')

/-! ## The two programs' contraction records are the same records -/

theorem dotA_eq : Cert.KernelIdeal.dot_S16384x32_S32x64_S16384x64_1_0_0_1_n_n = Cert.ReferenceIdeal.dot_S16384x32_S32x64_S16384x64_1_0_0_1_n_n := rfl
theorem dotB_eq : Cert.KernelIdeal.dot_S16384x64_S64x64_S16384x64_1_0_0_1_n_n = Cert.ReferenceIdeal.dot_S16384x64_S64x64_S16384x64_1_0_0_1_n_n := rfl
theorem dotC_eq : Cert.KernelIdeal.dot_S16384x64_S64x32_S16384x32_1_0_0_1_n_n = Cert.ReferenceIdeal.dot_S16384x64_S64x32_S16384x32_1_0_0_1_n_n := rfl
theorem dotE_eq : Cert.KernelIdeal.dot_S16384x32_S32x1_S16384x1_1_0_0_1_n_n = Cert.ReferenceIdeal.dot_S16384x32_S32x1_S16384x1_1_0_0_1_n_n := rfl

/-- Two arrays indexed by (row, column) are equal when they agree at every (r, j). -/
theorem funext_ix2 {n0 n1 : Nat} {α : Type} {f g : (⟨2, ![n0, n1]⟩ : Shape).Idx → α} (h : ∀ r j, f (ix2 r j) = g (ix2 r j)) : f = g :=
  funext fun i => by rw [eq_ix2 i]; exact h _ _

/-- The layer function depends only on its three arrays. -/
theorem layerAt_congr {a a' : Fin 16384 → Fin 16384 → EReal} {h h' : Fin 16384 → Fin 64 → EReal} {b b' : Fin 64 → EReal}
    (ha : a = a') (hh : h = h') (hb : b = b') (r : Fin 16384) (j : Fin 64) :
    Cert.GcnSpec.layerAt a h b r j = Cert.GcnSpec.layerAt a' h' b' r j := by subst ha hh hb; rfl

section Kernel
open Cert.KernelIdeal Cert.KernelIdeal.Gen Cert.KernelIdeal.Layer

/-- The first region's output array is the reference's first layer of the arguments. -/
theorem layer0_eq (h0 : Layer0Stmt) (m : (ℓ : Loc nD τ sig) → Buf (Elt Ideal) ℓ) (ρ : Dev nD → PrngReg) (c : Dev nD) :
    W3 (F := Ideal) m ρ c (Proc.devRef .tc main_v1)
      = Cert.ReferenceIdeal.RefLayer.layerTerm (m ((c : Thread nD τ).loc main_arg1)) (Host.dotGeneral (F := Ideal) (φ₁ := .f32) (φ₂ := .f32) Cert.ReferenceIdeal.dot_S16384x32_S32x64_S16384x64_1_0_0_1_n_n none (m ((c : Thread nD τ).loc main_arg0)) (m ((c : Thread nD τ).loc main_arg2))) (m ((c : Thread nD τ).loc main_arg3)) := by
  refine (W3_arr m ρ c 3).trans ?_
  refine funext_ix2 (n0 := 16384) (n1 := 64) fun r j => ?_
  refine (h0 (V2 m ρ) c r j).trans ?_
  rw [Cert.ReferenceIdeal.RefLayer.layerTerm_apply]
  refine layerAt_congr ?_ ?_ ?_ r j
  · funext r k; exact congrFun (W2_adj m ρ c) (ix2 r k)
  · funext k j; exact congrFun (W2_feat m ρ c) (ix2 k j)
  · funext j; exact (congrFun (W2_bias m ρ c) (ix2 0 j)).trans (Cert.ReferenceIdeal.RefLayer.bias_row_apply _ _ j)

/-- The second region's output array is the reference's second layer, of the first layer's output times the second weight
    matrix. -/
theorem layer1_eq (h0 : Layer0Stmt) (h1 : Layer1Stmt) (m : (ℓ : Loc nD τ sig) → Buf (Elt Ideal) ℓ) (ρ : Dev nD → PrngReg) (c : Dev nD) :
    W6 (F := Ideal) m ρ c (Proc.devRef .tc main_v3)
      = Cert.ReferenceIdeal.RefLayer.layerTerm (m ((c : Thread nD τ).loc main_arg1)) (Host.dotGeneral (F := Ideal) (φ₁ := .f32) (φ₂ := .f32) Cert.ReferenceIdeal.dot_S16384x64_S64x64_S16384x64_1_0_0_1_n_n none
          (Cert.ReferenceIdeal.RefLayer.layerTerm (m ((c : Thread nD τ).loc main_arg1)) (Host.dotGeneral (F := Ideal) (φ₁ := .f32) (φ₂ := .f32) Cert.ReferenceIdeal.dot_S16384x32_S32x64_S16384x64_1_0_0_1_n_n none (m ((c : Thread nD τ).loc main_arg0)) (m ((c : Thread nD τ).loc main_arg2))) (m ((c : Thread nD τ).loc main_arg3))) (m ((c : Thread nD τ).loc main_arg4))) (m ((c : Thread nD τ).loc main_arg5)) := by
  refine (W6_arr m ρ c 3).trans ?_
  refine funext_ix2 (n0 := 16384) (n1 := 64) fun r j => ?_
  refine (h1 (V5 m ρ) c r j).trans ?_
  rw [Cert.ReferenceIdeal.RefLayer.layerTerm_apply]
  refine layerAt_congr ?_ ?_ ?_ r j
  · funext r k; exact congrFun (W5_adj m ρ c) (ix2 r k)
  · funext k j
    refine (congrFun (W5_feat m ρ c) (ix2 k j)).trans ?_
    rw [layer0_eq h0 m ρ c, dotB_eq]
  · funext j; exact (congrFun (W5_bias m ρ c) (ix2 0 j)).trans (Cert.ReferenceIdeal.RefLayer.bias_row_apply _ _ j)

/-- The kernel program's result buffer after its run is refOut of its arguments. -/
theorem kernel_out_eq (h0 : Layer0Stmt) (h1 : Layer1Stmt) (m : (ℓ : Loc nD τ sig) → Buf (Elt Ideal) ℓ) (ρ : Dev nD → PrngReg) (c : Dev nD) :
    W9 (F := Ideal) m ρ c (Proc.devRef .tc main_v12)
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_out m ρ c).trans ?_
  rw [layer1_eq h0 h1 m ρ c]
  unfold headTerm refOut
  rw [dotC_eq, dotE_eq]

end Kernel

end Cert.Bridge

end
-- ==== Proof.lean ====
/-
  A two-layer graph convolution with a dense head, kernel against reference, over the extended reals.
  Each layer is  g = relu(a · h + b)  with a the 16384 × 16384 adjacency. The kernel computes a layer as one
  pallas_call over 8 row tiles and 8 contraction steps, keeping the partial sums of a row tile in an accumulator
  that it zeroes at the first step and reads out, through bias and relu, at the last; the reference computes the
  product in one piece. At the ideal instance a change of float format is the identity and both matrix products
  are exact sums, so the two agree once the sum over the 16384 columns is regrouped into its 8 blocks of 2048
  (addition of extended reals is commutative and associative: no finiteness is used). The dense products between
  and after the layers are the same host operations in both programs and are carried unopened.
  Frames: every segment of @main terminates without a fault and none writes an argument array; the region's
  invariant carries the accumulator from one grid point to the next at exactly the partial sums above.
-/
import proofs.«119303_j10565619548474_1_alg».proof.Defs
import proofs.«119303_j10565619548474_1_alg».proof.Proof.Gen.Kernel
import proofs.«119303_j10565619548474_1_alg».proof.Proof.Gen.KernelIdeal
import proofs.«119303_j10565619548474_1_alg».proof.Proof.Gen.ReferenceIdeal
import proofs.«119303_j10565619548474_1_alg».proof.Proof.Gen.Pre_finite_inputs
import proofs.«119303_j10565619548474_1_alg».proof.Proof.Gen.ReferenceIdeal.Run
import proofs.«119303_j10565619548474_1_alg».proof.Proof.K.Run
import proofs.«119303_j10565619548474_1_alg».proof.Proof.KI.Run
import proofs.«119303_j10565619548474_1_alg».proof.Proof.KI.R0Value
import proofs.«119303_j10565619548474_1_alg».proof.Proof.KI.R1Value
import proofs.«119303_j10565619548474_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Layer.frame (F := Bits) m ρ

theorem frame_ki : Cert.frame_KernelIdeal := fun m ρ _ => Cert.KernelIdeal.Layer.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result buffer at the reference's term of the arguments: the kernel's by the value of its
    two regions and the shared host operations, the reference's by its generated run. -/
theorem algebraic : Cert.algebraic_KernelIdeal_ReferenceIdeal := by
  intro m ρ m' ρ' _ hagree
  refine ⟨fun c => Cert.Bridge.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_, ?_⟩) (Cert.KernelIdeal.Layer.run_all (F := Ideal) m ρ)
    · exact (h c _ (Cert.KernelIdeal.Layer.mem_uc Cert.KernelIdeal.main_v12 (by decide))).trans
        (Cert.Bridge.kernel_out_eq Cert.KernelIdeal.Layer.Region0.layer0_value Cert.KernelIdeal.Layer.Region1.layer1_value m ρ c)
    · exact ⟨(h c _ (Cert.KernelIdeal.Layer.mem_uc Cert.KernelIdeal.main_arg0 (by decide))).trans (Cert.KernelIdeal.Layer.W9_main_arg0 m ρ c),
        (h c _ (Cert.KernelIdeal.Layer.mem_uc Cert.KernelIdeal.main_arg1 (by decide))).trans (Cert.KernelIdeal.Layer.W9_main_arg1 m ρ c),
        (h c _ (Cert.KernelIdeal.Layer.mem_uc Cert.KernelIdeal.main_arg2 (by decide))).trans (Cert.KernelIdeal.Layer.W9_main_arg2 m ρ c),
        (h c _ (Cert.KernelIdeal.Layer.mem_uc Cert.KernelIdeal.main_arg3 (by decide))).trans (Cert.KernelIdeal.Layer.W9_main_arg3 m ρ c),
        (h c _ (Cert.KernelIdeal.Layer.mem_uc Cert.KernelIdeal.main_arg4 (by decide))).trans (Cert.KernelIdeal.Layer.W9_main_arg4 m ρ c),
        (h c _ (Cert.KernelIdeal.Layer.mem_uc Cert.KernelIdeal.main_arg5 (by decide))).trans (Cert.KernelIdeal.Layer.W9_main_arg5 m ρ c),
        (h c _ (Cert.KernelIdeal.Layer.mem_uc Cert.KernelIdeal.main_arg6 (by decide))).trans (Cert.KernelIdeal.Layer.W9_main_arg6 m ρ c),
        (h c _ (Cert.KernelIdeal.Layer.mem_uc Cert.KernelIdeal.main_arg7 (by decide))).trans (Cert.KernelIdeal.Layer.W9_main_arg7 m ρ c),
        (h c _ (Cert.KernelIdeal.Layer.mem_uc Cert.KernelIdeal.main_arg8 (by decide))).trans (Cert.KernelIdeal.Layer.W9_main_arg8 m ρ c),
        (h c _ (Cert.KernelIdeal.Layer.mem_uc Cert.KernelIdeal.main_arg9 (by decide))).trans (Cert.KernelIdeal.Layer.W9_main_arg9 m ρ c)⟩
  · refine (θ_run Cert.ReferenceIdeal.defs _ _).mono (fun r h c => ⟨(h c).1.trans ?_, (h c).2⟩) (Cert.ReferenceIdeal.Value.run (F := Ideal) m' ρ')
    refine (Cert.Bridge.ref_term_eq m' c).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
